-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256x128 .f32) (main_arg6 : FVec F S256x128 .f32) (main_arg7 : FVec F S128 .f32) (main_arg8 : FVec F S128x2 .f32) (main_arg9 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1000000 32) (main_arg2 : FVec F S256x256 .f32) (main_arg3 : FVec F S256x256 .f32) (main_arg4 : FVec F S256 .f32) (main_arg5 : FVec F S256x128 .f32) (main_arg6 : FVec F S256x128 .f32) (main_arg7 : FVec F S128 .f32) (main_arg8 : FVec F S128x2 .f32) (main_arg9 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x256 : Shape := ⟨2, ![1000000, 256]⟩
abbrev S100000x1 : Shape := ⟨2, ![100000, 1]⟩
abbrev S1x256 : Shape := ⟨2, ![1, 256]⟩
abbrev S2000x256 : Shape := ⟨2, ![2000, 256]⟩
abbrev S1x128 : Shape := ⟨2, ![1, 128]⟩
abbrev S1x2 : Shape := ⟨2, ![1, 2]⟩
abbrev S100000x2 : Shape := ⟨2, ![100000, 2]⟩
abbrev S2000x2 : Shape := ⟨2, ![2000, 2]⟩
abbrev S2000x128 : Shape := ⟨2, ![2000, 128]⟩
abbrev S2000 : Shape := ⟨1, ![2000]⟩
abbrev S2000x1 : Shape := ⟨2, ![2000, 1]⟩

abbrev nBuf : Space → Nat
  | .hbm => 70
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x256, .f32⟩
  | .hbm, ⟨42, _⟩ => ⟨S_, .f32⟩
  | .hbm, ⟨43, _⟩ => ⟨S100000x256, .f32⟩
  | .hbm, ⟨44, _⟩ => ⟨S1000000x1, .i32⟩
  | .hbm, ⟨45, _⟩ => ⟨S100000x256, .f32⟩
  | .hbm, ⟨46, _⟩ => ⟨S100000x1, .f32⟩
  | .hbm, ⟨47, _⟩ => ⟨S100000x256, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x256, .f32⟩
  | .hbm, ⟨60, _⟩ => ⟨S_, .f32⟩
  | .hbm, ⟨61, _⟩ => ⟨S100000x256, .f32⟩
  | .hbm, ⟨62, _⟩ => ⟨S1000000x1, .i32⟩
  | .hbm, ⟨63, _⟩ => ⟨S100000x256, .f32⟩
  | .hbm, ⟨64, _⟩ => ⟨S100000x1, .f32⟩
  | .hbm, ⟨65, _⟩ => ⟨S100000x256, .f32⟩
  | .hbm, ⟨66, _⟩ => ⟨S100000x256, .f32⟩
  | .hbm, ⟨67, _⟩ => ⟨S1x128, .f32⟩
  | .hbm, ⟨68, _⟩ => ⟨S1x2, .f32⟩
  | .hbm, ⟨69, _⟩ => ⟨S100000x2, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S128x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S100000_S1000000x1_S1000000_n_0_0_1_wf : ScatterDims.WF S100000 S1000000x1 S1000000 [] [0] [0] 1
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S100000x2.size a
  hwx1_7 : ∀ i : grid1.Coords, EltTy.bits .f32 = 32 ∨ (Rect.block (s := S100000x2) S2000x2.size (cc1_transform_7 i) (hinb1_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v27) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x256 : Shape := ⟨2, ![1000000, 256]⟩
abbrev S100000x1 : Shape := ⟨2, ![100000, 1]⟩
abbrev S1x256 : Shape := ⟨2, ![1, 256]⟩
abbrev S100000x128 : Shape := ⟨2, ![100000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x256, .f32⟩
  | .hbm, ⟨42, _⟩ => ⟨S_, .f32⟩
  | .hbm, ⟨43, _⟩ => ⟨S100000x256, .f32⟩
  | .hbm, ⟨44, _⟩ => ⟨S1000000x1, .i32⟩
  | .hbm, ⟨45, _⟩ => ⟨S100000x256, .f32⟩
  | .hbm, ⟨46, _⟩ => ⟨S100000x1, .f32⟩
  | .hbm, ⟨47, _⟩ => ⟨S100000x256, .f32⟩
  | .hbm, ⟨48, _⟩ => ⟨S100000x256, .f32⟩
  | .hbm, ⟨49, _⟩ => ⟨S100000x256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x256, .f32⟩
  | .hbm, ⟨67, _⟩ => ⟨S_, .f32⟩
  | .hbm, ⟨68, _⟩ => ⟨S100000x256, .f32⟩
  | .hbm, ⟨69, _⟩ => ⟨S1000000x1, .i32⟩
  | .hbm, ⟨70, _⟩ => ⟨S100000x256, .f32⟩
  | .hbm, ⟨71, _⟩ => ⟨S100000x1, .f32⟩
  | .hbm, ⟨72, _⟩ => ⟨S100000x256, .f32⟩
  | .hbm, ⟨73, _⟩ => ⟨S100000x256, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x2, .f32⟩
  | .hbm, ⟨84, _⟩ => ⟨S1x2, .f32⟩
  | .hbm, ⟨85, _⟩ => ⟨S100000x2, .f32⟩
  | .hbm, ⟨86, _⟩ => ⟨S100000x2, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x2, .f32⟩
  | .hbm, ⟨94, _⟩ => ⟨S100000x2, .f32⟩
  | .hbm, ⟨95, _⟩ => ⟨S100000x2, .f32⟩
  | .hbm, ⟨96, _⟩ => ⟨S_, .f32⟩
  | .hbm, ⟨97, _⟩ => ⟨S100000, .f32⟩
  | .hbm, ⟨98, _⟩ => ⟨S100000x1, .f32⟩
  | .hbm, ⟨99, _⟩ => ⟨S100000x1, .f32⟩
  | .hbm, ⟨100, _⟩ => ⟨S100000x2, .f32⟩
  | .hbm, ⟨101, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_call3_cst_0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_cst_1 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_v59 : Ref sig .tc := ⟨.hbm, 101, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  scatter_S100000_S1000000x1_S1000000_n_0_0_1_wf : ScatterDims.WF S100000 S1000000x1 S1000000 [] [0] [0] 1
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x2_S100000x2_1_0_0_1_n_n_wf : DotDims.WF S100000x128 S128x2 S100000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  THE MATHEMATICS, with no program in sight. A two-layer GraphSAGE over 100000 nodes:

    h1      = relu (A x  · W1l + b1 + x  · W1r)            (256 features)
    h2      = relu (A h1 · W2l + b2 + h1 · W2r)            (128 features)
    logits  = h2 · Wc + bc                                 (2 classes)
    result  = log-softmax of the logits along the classes

  where A is the neighbour-mean aggregation, here ANY map of feature arrays (both programs apply the same one),
  of which only one thing is used: it sends an array of real numbers to an array of real numbers.

  The two programs differ in how they subtract the log-sum-exp. With M the row's maximum and S the logarithm of
  the row's sum of exp (logit − M), one computes  logit − (M + S)  and the other  (logit − M) − S.  On the
  extended reals these agree as soon as logit and M are real numbers, whatever S is; they differ when M = +∞.
  So the equality needs every logit to be a real number, which is where the finiteness of the inputs is used:
  sums, products and maxima of real numbers are real numbers, layer by layer.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

/-- Every entry of the array is a real number (neither infinity). -/
def AllReal {s : Shape} (v : s.Idx → EReal) : Prop := ∀ i, ∃ x : ℝ, v i = (x : EReal)

/-- One layer before its rectifier, at node r and output feature j:
    Σₖ a(r,k)·Wl(k,j) + b(j) + Σₖ x(r,k)·Wr(k,j). -/
def lin {K H : Nat} (a x : (⟨2, ![100000, K]⟩ : Shape).Idx → EReal) (Wl Wr : (⟨2, ![K, H]⟩ : Shape).Idx → EReal)
    (b : (⟨1, ![H]⟩ : Shape).Idx → EReal) (r : Fin 100000) (j : Fin H) : EReal :=
  (∑ k : Fin K, a (ix2 r k) * Wl (ix2 k j)) + b (ix1 j) + ∑ k : Fin K, x (ix2 r k) * Wr (ix2 k j)

/-- One layer: the rectifier of `lin`, as an array over (node, feature). -/
def layer {K H : Nat} (a x : (⟨2, ![100000, K]⟩ : Shape).Idx → EReal) (Wl Wr : (⟨2, ![K, H]⟩ : Shape).Idx → EReal)
    (b : (⟨1, ![H]⟩ : Shape).Idx → EReal) : (⟨2, ![100000, H]⟩ : Shape).Idx → EReal :=
  fun i => max (lin a x Wl Wr b (i 0) (i 1)) 0

theorem layer_ix2 {K H : Nat} (a x : (⟨2, ![100000, K]⟩ : Shape).Idx → EReal) (Wl Wr : (⟨2, ![K, H]⟩ : Shape).Idx → EReal)
    (b : (⟨1, ![H]⟩ : Shape).Idx → EReal) (r : Fin 100000) (j : Fin H) :
    layer a x Wl Wr b (ix2 r j) = max (lin a x Wl Wr b r j) 0 := rfl

/-- The classifier: Σₖ h(r,k)·Wc(k,j) + bc(j). -/
def logit (h : (⟨2, ![100000, 128]⟩ : Shape).Idx → EReal) (Wc : (⟨2, ![128, 2]⟩ : Shape).Idx → EReal)
    (bc : (⟨1, ![2]⟩ : Shape).Idx → EReal) : (⟨2, ![100000, 2]⟩ : Shape).Idx → EReal :=
  fun i => (∑ k : Fin 128, h (ix2 (i 0) k) * Wc (ix2 k (i 1))) + bc (ix1 (i 1))

theorem logit_ix2 (h : (⟨2, ![100000, 128]⟩ : Shape).Idx → EReal) (Wc : (⟨2, ![128, 2]⟩ : Shape).Idx → EReal)
    (bc : (⟨1, ![2]⟩ : Shape).Idx → EReal) (r : Fin 100000) (j : Fin 2) :
    logit h Wc bc (ix2 r j) = (∑ k : Fin 128, h (ix2 r k) * Wc (ix2 k j)) + bc (ix1 j) := rfl

/-- The larger of a row's two logits. -/
def rowMax (L : (⟨2, ![100000, 2]⟩ : Shape).Idx → EReal) (r : Fin 100000) : EReal :=
  max (L (ix2 r 0)) (L (ix2 r 1))

/-- log (exp (L(r,0) − M) + exp (L(r,1) − M)) with M the row's maximum. -/
def rowLogSum (L : (⟨2, ![100000, 2]⟩ : Shape).Idx → EReal) (r : Fin 100000) : EReal :=
  Ideal.log (Ideal.exp (L (ix2 r 0) - rowMax L r) + Ideal.exp (L (ix2 r 1) - rowMax L r))

/-- The log-softmax as the kernel subtracts: logit − (M + S). -/
def lsmJoined (L : (⟨2, ![100000, 2]⟩ : Shape).Idx → EReal) : (⟨2, ![100000, 2]⟩ : Shape).Idx → EReal :=
  fun i => L i - (rowMax L (i 0) + rowLogSum L (i 0))

/-- The log-softmax as the reference subtracts: (logit − M) − S. -/
def lsmSplit (L : (⟨2, ![100000, 2]⟩ : Shape).Idx → EReal) : (⟨2, ![100000, 2]⟩ : Shape).Idx → EReal :=
  fun i => (L i - rowMax L (i 0)) - rowLogSum L (i 0)

/-- The whole network's logits over an aggregation `A`. -/
def logits (A : ((⟨2, ![100000, 256]⟩ : Shape).Idx → EReal) → ((⟨2, ![100000, 256]⟩ : Shape).Idx → EReal))
    (x : (⟨2, ![100000, 256]⟩ : Shape).Idx → EReal)
    (W1l W1r : (⟨2, ![256, 256]⟩ : Shape).Idx → EReal) (b1 : (⟨1, ![256]⟩ : Shape).Idx → EReal)
    (W2l W2r : (⟨2, ![256, 128]⟩ : Shape).Idx → EReal) (b2 : (⟨1, ![128]⟩ : Shape).Idx → EReal)
    (Wc : (⟨2, ![128, 2]⟩ : Shape).Idx → EReal) (bc : (⟨1, ![2]⟩ : Shape).Idx → EReal) :
    (⟨2, ![100000, 2]⟩ : Shape).Idx → EReal :=
  logit (layer (A (layer (A x) x W1l W1r b1)) (layer (A x) x W1l W1r b1) W2l W2r b2) Wc bc

/-! ## Real numbers stay real numbers -/

theorem real_sum {ι : Type} (s : Finset ι) (f : ι → EReal) (h : ∀ k ∈ s, ∃ x : ℝ, f k = (x : EReal)) :
    ∃ x : ℝ, ∑ k ∈ s, f k = (x : EReal) := by
  classical
  induction s using Finset.induction_on with
  | empty => exact ⟨0, by simp⟩
  | insert a s ha ih =>
    obtain ⟨y, hy⟩ := ih (fun k hk => h k (Finset.mem_insert_of_mem hk))
    obtain ⟨z, hz⟩ := h a (Finset.mem_insert_self a s)
    exact ⟨z + y, by rw [Finset.sum_insert ha, hy, hz, EReal.coe_add]⟩

/-- The product of two real numbers is a real number. -/
private theorem mul_real {u v : EReal} (hu : ∃ x : ℝ, u = (x : EReal)) (hv : ∃ x : ℝ, v = (x : EReal)) :
    ∃ x : ℝ, u * v = (x : EReal) := by
  obtain ⟨p, rfl⟩ := hu
  obtain ⟨q, rfl⟩ := hv
  exact ⟨p * q, (EReal.coe_mul p q).symm⟩

/-- The sum of two real numbers is a real number. -/
private theorem add_real {u v : EReal} (hu : ∃ x : ℝ, u = (x : EReal)) (hv : ∃ x : ℝ, v = (x : EReal)) :
    ∃ x : ℝ, u + v = (x : EReal) := by
  obtain ⟨p, rfl⟩ := hu
  obtain ⟨q, rfl⟩ := hv
  exact ⟨p + q, (EReal.coe_add p q).symm⟩

/-- The larger of two real numbers is a real number: the coercion is monotone, so it commutes with max. -/
private theorem coe_max_real (p q : ℝ) : ((max p q : ℝ) : EReal) = max (p : EReal) (q : EReal) :=
  EReal.coe_strictMono.monotone.map_max

theorem lin_real {K H : Nat} (a x : (⟨2, ![100000, K]⟩ : Shape).Idx → EReal) (Wl Wr : (⟨2, ![K, H]⟩ : Shape).Idx → EReal)
    (b : (⟨1, ![H]⟩ : Shape).Idx → EReal) (ha : AllReal a) (hx : AllReal x) (hl : AllReal Wl) (hr : AllReal Wr)
    (hb : AllReal b) (r : Fin 100000) (j : Fin H) : ∃ y : ℝ, lin a x Wl Wr b r j = (y : EReal) := by
  have h1 : ∃ s : ℝ, (∑ k : Fin K, a (ix2 r k) * Wl (ix2 k j)) = (s : EReal) :=
    real_sum Finset.univ _ (fun k _ => mul_real (ha (ix2 r k)) (hl (ix2 k j)))
  have h2 : ∃ s : ℝ, (∑ k : Fin K, x (ix2 r k) * Wr (ix2 k j)) = (s : EReal) :=
    real_sum Finset.univ _ (fun k _ => mul_real (hx (ix2 r k)) (hr (ix2 k j)))
  unfold lin
  exact add_real (add_real h1 (hb (ix1 j))) h2

theorem layer_real {K H : Nat} (a x : (⟨2, ![100000, K]⟩ : Shape).Idx → EReal) (Wl Wr : (⟨2, ![K, H]⟩ : Shape).Idx → EReal)
    (b : (⟨1, ![H]⟩ : Shape).Idx → EReal) (ha : AllReal a) (hx : AllReal x) (hl : AllReal Wl) (hr : AllReal Wr)
    (hb : AllReal b) : AllReal (layer a x Wl Wr b) := by
  intro i
  obtain ⟨y, hy⟩ := lin_real a x Wl Wr b ha hx hl hr hb (i 0) (i 1)
  refine ⟨max y 0, ?_⟩
  unfold layer
  rw [hy, coe_max_real, EReal.coe_zero]

theorem logit_real (h : (⟨2, ![100000, 128]⟩ : Shape).Idx → EReal) (Wc : (⟨2, ![128, 2]⟩ : Shape).Idx → EReal)
    (bc : (⟨1, ![2]⟩ : Shape).Idx → EReal) (hh : AllReal h) (hw : AllReal Wc) (hb : AllReal bc) :
    AllReal (logit h Wc bc) := by
  intro i
  have h1 : ∃ s : ℝ, (∑ k : Fin 128, h (ix2 (i 0) k) * Wc (ix2 k (i 1))) = (s : EReal) :=
    real_sum Finset.univ _ (fun k _ => mul_real (hh (ix2 (i 0) k)) (hw (ix2 k (i 1))))
  unfold logit
  exact add_real h1 (hb (ix1 (i 1)))

/-- The network's logits are real numbers when the inputs are and the aggregation keeps real numbers real. -/
theorem logits_real (A : ((⟨2, ![100000, 256]⟩ : Shape).Idx → EReal) → ((⟨2, ![100000, 256]⟩ : Shape).Idx → EReal))
    (hA : ∀ f, AllReal f → AllReal (A f))
    (x : (⟨2, ![100000, 256]⟩ : Shape).Idx → EReal)
    (W1l W1r : (⟨2, ![256, 256]⟩ : Shape).Idx → EReal) (b1 : (⟨1, ![256]⟩ : Shape).Idx → EReal)
    (W2l W2r : (⟨2, ![256, 128]⟩ : Shape).Idx → EReal) (b2 : (⟨1, ![128]⟩ : Shape).Idx → EReal)
    (Wc : (⟨2, ![128, 2]⟩ : Shape).Idx → EReal) (bc : (⟨1, ![2]⟩ : Shape).Idx → EReal)
    (hx : AllReal x) (h1l : AllReal W1l) (h1r : AllReal W1r) (hb1 : AllReal b1)
    (h2l : AllReal W2l) (h2r : AllReal W2r) (hb2 : AllReal b2) (hc : AllReal Wc) (hbc : AllReal bc) :
    AllReal (logits A x W1l W1r b1 W2l W2r b2 Wc bc) := by
  unfold logits
  have hh1 : AllReal (layer (A x) x W1l W1r b1) := layer_real _ _ _ _ _ (hA x hx) hx h1l h1r hb1
  have hh2 : AllReal (layer (A (layer (A x) x W1l W1r b1)) (layer (A x) x W1l W1r b1) W2l W2r b2) :=
    layer_real _ _ _ _ _ (hA _ hh1) hh1 h2l h2r hb2
  exact logit_real _ _ _ hh2 hc hbc

/-! ## The two ways of subtracting agree on real logits -/

/-- a − (m + s) = (a − m) − s on the extended reals when a and m are real numbers, whatever s is. -/
theorem sub_add_eq_sub_sub_of_real (a m : ℝ) (s : EReal) :
    (a : EReal) - ((m : EReal) + s) = ((a : EReal) - (m : EReal)) - s := by
  induction s using EReal.rec with
  | bot =>
    rw [EReal.add_bot, EReal.coe_sub_bot, ← EReal.coe_sub, EReal.coe_sub_bot]
  | coe s =>
    norm_cast
    ring
  | top =>
    rw [EReal.coe_add_top, EReal.sub_top, EReal.sub_top]

theorem lsm_eq (L : (⟨2, ![100000, 2]⟩ : Shape).Idx → EReal) (hL : AllReal L) : lsmJoined L = lsmSplit L := by
  funext i
  obtain ⟨a, ha⟩ := hL i
  obtain ⟨p, hp⟩ := hL (ix2 (i 0) 0)
  obtain ⟨q, hq⟩ := hL (ix2 (i 0) 1)
  have hm : rowMax L (i 0) = ((max p q : ℝ) : EReal) := by
    unfold rowMax
    rw [hp, hq, coe_max_real]
  unfold lsmJoined lsmSplit
  rw [hm, ha]
  exact sub_add_eq_sub_sub_of_real a (max p q) (rowLogSum L (i 0))

end Cert.Spec

end
-- ==== Proof.Agg.lean ====
/-
  THE NEIGHBOUR-MEAN AGGREGATION both programs apply, as ONE function of the edge list and a feature array, spelt
  with the host operations the programs print:

    src   = row 0 of the edge list, a negative word counted from the end (word + 100000);   dst = row 1;
    cnt   = for each node the number of edges whose dst word is that node (a scatter-add of ones into zeros);
    scale = 1 / max (cnt, 1) where cnt > 0, else 0;
    agg f = (scatter-add into zeros, at dst, of the rows of f gathered at src) · scale, row by row.

  Nothing of it is ever opened to compare the two programs: they apply the same function. What IS needed is that it
  sends an array of real numbers to an array of real numbers: a gathered entry is an entry of f; a scatter-add's
  entry is the operand's entry (zero) plus a finite sum of updates; cnt is such a sum of ones, so max (cnt, 1) is a
  real number ≥ 1 and its reciprocal a real number; a product of real numbers is a real number.
-/
import proofs.«166485_j36979668418994_1_alg».proof.Proof.Gen.KernelIdeal
import proofs.«166485_j36979668418994_1_alg».proof.Proof.Spec
import Idealize.ShloMosaic.PureOps.Ideal.Laws
import Idealize.ShloMosaic.Lib.IdealHost
import Idealize.ShloMosaic.Lib.ValueIdx

noncomputable section

namespace Cert.Hand

open Idealize.ShloMosaic Cert.KernelIdeal Cert.KernelIdeal.Gen

/-- The aggregation, at any float family. -/
def agg {F : FTy → Type} [FloatOps F] (ei : IVec S2x1000000 32) (f : FVec F S100000x256 .f32) : FVec F S100000x256 .f32 :=
  (mulf (Host.scatterAdd scatter_S100000x256_S1000000x1_S1000000x256_1_0_0_1 (broadcastInDim S100000x256 ![] bcast_S_S100000x256 (constant (F := F) S_ .f32 0x00000000#32)) (broadcastInDim S1000000x1 ![0] bcast_S1000000_S1000000x1_0 (shapeCast _ (extractStridedSlice S1x1000000 ![1, 0] ei slices_S2x1000000_S1x1000000_1_0) shapeCasts_S1x1000000_S1000000)) (Host.gather gather_S100000x256_S1000000x1_S1000000x256_1_0_n_n_0_1_1256 f (broadcastInDim S1000000x1 ![0] bcast_S1000000_S1000000x1_0 (select (cmpi .slt (shapeCast _ (extractStridedSlice S1x1000000 ![0, 0] ei slices_S2x1000000_S1x1000000_0_0) shapeCasts_S1x1000000_S1000000) (broadcastInDim S1000000 ![] bcast_S_S1000000 (constantI S_ 32 0#32))) (addi (shapeCast _ (extractStridedSlice S1x1000000 ![0, 0] ei slices_S2x1000000_S1x1000000_0_0) shapeCasts_S1x1000000_S1000000) (broadcastInDim S1000000 ![] bcast_S_S1000000 (constantI S_ 32 100000#32))) (shapeCast _ (extractStridedSlice S1x1000000 ![0, 0] ei slices_S2x1000000_S1x1000000_0_0) shapeCasts_S1x1000000_S1000000))))) (broadcastInDim S100000x256 ![0, 1] bcast_S100000x1_S100000x256_0_1 (broadcastInDim S100000x1 ![0] bcast_S100000_S100000x1_0 (select (cmpf (F := F) .ogt (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (shapeCast _ (extractStridedSlice S1x1000000 ![1, 0] ei slices_S2x1000000_S1x1000000_1_0) shapeCasts_S1x1000000_S1000000)) (broadcastInDim S1000000 ![] bcast_S_S1000000 (constant (F := F) S_ .f32 0x3F800000#32))) (broadcastInDim S100000 ![] bcast_S_S100000 (constant (F := F) S_ .f32 0x00000000#32))) (Host.divf (broadcastInDim S100000 ![] bcast_S_S100000 (constant (F := F) S_ .f32 0x3F800000#32)) (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (shapeCast _ (extractStridedSlice S1x1000000 ![1, 0] ei slices_S2x1000000_S1x1000000_1_0) shapeCasts_S1x1000000_S1000000)) (broadcastInDim S1000000 ![] bcast_S_S1000000 (constant (F := F) S_ .f32 0x3F800000#32))) (broadcastInDim S100000 ![] bcast_S_S100000 (constant (F := F) S_ .f32 0x3F800000#32)))) (broadcastInDim S100000 ![] bcast_S_S100000 (id (constant (F := F) S_ .f32 0x00000000#32)))))))

/-! ## Real numbers stay real numbers through each operation of the aggregation -/

/-- The zero constant is the real number zero. -/
private theorem zero_real (s : Shape) : Cert.Spec.AllReal (constant (F := Ideal) s .f32 0x00000000#32) := by
  intro i
  refine ⟨0, ?_⟩
  rw [ValueIdx.constant_apply, Ideal.ofBits_zero_f32, EReal.coe_zero]

/-- The one constant is the real number one, at every index. -/
private theorem one_eq (s : Shape) (i : s.Idx) : constant (F := Ideal) s .f32 0x3F800000#32 i = ((1 : ℝ) : EReal) := by
  rw [ValueIdx.constant_apply, Ideal.ofBits_one_f32, EReal.coe_one]

private theorem one_real (s : Shape) : Cert.Spec.AllReal (constant (F := Ideal) s .f32 0x3F800000#32) :=
  fun i => ⟨1, one_eq s i⟩

/-- A broadcast reads its operand at some index: real numbers stay real numbers. -/
private theorem bcast_real {s t : Shape} (dims : Fin s.rank → Fin t.rank) (h : s.BroadcastsInDim t dims)
    (x : s.Idx → EReal) (hx : Cert.Spec.AllReal x) : Cert.Spec.AllReal (broadcastInDim t dims h x) :=
  fun _ => hx _

/-- A gather reads its operand at some index. -/
private theorem gather_real {s si t : Shape} {w : Nat} (d : GatherDims s si t) (x : s.Idx → EReal) (idx : IVec si w)
    (hx : Cert.Spec.AllReal x) : Cert.Spec.AllReal (Host.gather d x idx) :=
  fun _ => hx _

/-- An accumulating scatter's entry is the operand's entry plus a finite sum of updates. -/
private theorem scatterAdd_real {s si su : Shape} {w : Nat} (d : ScatterDims s si su) (x : FVec Ideal s .f32)
    (idx : IVec si w) (upd : FVec Ideal su .f32) (hx : Cert.Spec.AllReal x) (hu : Cert.Spec.AllReal upd) :
    Cert.Spec.AllReal (Host.scatterAdd d x idx upd) := by
  intro i
  have h : Host.scatterAdd d x idx upd i = Ideal.hostScatterAdd d x idx upd i := rfl
  rw [h]
  unfold Ideal.hostScatterAdd
  obtain ⟨a, ha⟩ := hx i
  obtain ⟨b, hb⟩ := Cert.Spec.real_sum (Finset.univ.filter (fun j => d.resultIdx? j idx = some i)) upd (fun k _ => hu k)
  exact ⟨a + b, by rw [ha, hb, EReal.coe_add]⟩

/-- The product of two arrays of real numbers. -/
private theorem mulf_real {s : Shape} (a b : FVec Ideal s .f32) (ha : Cert.Spec.AllReal a) (hb : Cert.Spec.AllReal b) :
    Cert.Spec.AllReal (mulf a b) := by
  intro i
  obtain ⟨p, hp⟩ := ha i
  obtain ⟨q, hq⟩ := hb i
  exact ⟨p * q, by rw [ValueIdx.mulf_apply, hp, hq, EReal.coe_mul]⟩

/-- A selection between two arrays of real numbers. -/
private theorem select_real {s : Shape} (c : IVec s 1) (a b : s.Idx → EReal) (ha : Cert.Spec.AllReal a)
    (hb : Cert.Spec.AllReal b) : Cert.Spec.AllReal (select c a b) := by
  intro i
  rw [ValueIdx.select_apply]
  by_cases hc : c i = 1#1
  · rw [hc, ValueIdx.select_one]; exact ha i
  · rw [ValueIdx.eq_zero_of_ne_one hc, ValueIdx.select_zero]; exact hb i

/-- 1 / max (c, 1) for a real number c: the maximum is a real number ≥ 1, so not zero, and its reciprocal is a
    real number. -/
private theorem recip_real {s : Shape} (one cnt : FVec Ideal s .f32) (h1 : ∀ i, one i = ((1 : ℝ) : EReal))
    (hc : Cert.Spec.AllReal cnt) : Cert.Spec.AllReal (Host.divf one (maximumf cnt one)) := by
  intro i
  obtain ⟨c, hc⟩ := hc i
  have h : Host.divf one (maximumf cnt one) i = Ideal.div (one i) (max (cnt i) (one i)) := rfl
  have hm : max (c : EReal) ((1 : ℝ) : EReal) = ((max c 1 : ℝ) : EReal) :=
    (EReal.coe_strictMono.monotone.map_max).symm
  have hne : max c 1 ≠ 0 := by
    have : (1 : ℝ) ≤ max c 1 := le_max_right _ _
    linarith
  refine ⟨1 * (1 / max c 1), ?_⟩
  rw [h, h1 i, hc, hm, Ideal.div_coe hne, EReal.coe_mul]

/-- At the extended reals the aggregation of real numbers is real numbers. -/
theorem agg_real (ei : IVec S2x1000000 32) (f : FVec Ideal S100000x256 .f32) (hf : Cert.Spec.AllReal f) :
    Cert.Spec.AllReal (agg (F := Ideal) ei f) := by
  unfold agg
  apply mulf_real
  · apply scatterAdd_real
    · exact bcast_real _ _ _ (zero_real _)
    · exact gather_real _ _ _ hf
  · apply bcast_real
    apply bcast_real
    apply select_real
    · apply recip_real
      · intro i
        exact one_eq _ _
      · apply scatterAdd_real
        · exact bcast_real _ _ _ (zero_real _)
        · exact bcast_real _ _ _ (one_real _)
    · exact bcast_real _ _ _ (zero_real _)

end Cert.Hand

end
-- ==== Proof.PreReal.lean ====
/-
  FROM THE PRECONDITION TO REAL NUMBERS. The precondition is a conjunction of nine "every entry has absolute value
  below +∞" tests, one per float argument; at the extended reals |x| < +∞ says x is neither infinity, that is, a real
  number. (The edge list is an integer array and is not constrained.)
-/
import proofs.«166485_j36979668418994_1_alg».proof.Defs
import proofs.«166485_j36979668418994_1_alg».proof.Proof.Spec
import proofs.«166485_j36979668418994_1_alg».proof.Proof.Gen.Pre_finite_inputs
import Idealize.ShloMosaic.Lib.ReduceAll
import Idealize.ShloMosaic.Lib.ValueIdx

noncomputable section

namespace Cert.Hand

open Idealize.ShloMosaic Idealize.ShloMosaic.ValueIdx Idealize.SL.Sem Cert.KernelIdeal

/-- A rank-0 shape has one index. -/
private instance : Subsingleton (⟨0, ![]⟩ : Shape).Idx := ⟨fun a b => funext fun d => d.elim0⟩

/-- The bit pattern the test compares against is +∞. -/
private theorem inf_bits : Ideal.ofBits .f32 0x7F800000#32 = (⊤ : EReal) := by
  simp [Ideal.ofBits, Ideal.ieee]

/-- |x| < +∞ on the extended reals says x is a real number: at either infinity |x| = +∞. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The conjunction of two one-bit arrays is one at an index only where both are. -/
private theorem andi_split {s : Shape} (x y : IVec s 1) (i : s.Idx) (h : andi x y i = 1#1) : x i = 1#1 ∧ y i = 1#1 :=
  IntOp.andi_eq_one.1 h

/-- One test of the precondition, at an array of any shape: if "every |entry| < +∞" came out one, every entry is a
    real number. -/
private theorem allReal_of_test {s : Shape} (x : FVec Ideal s .f32)
    (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1) : Cert.Spec.AllReal x := by
  intro i
  have h := Host.reduce_andi_all _ _ hr hu ix0 e i
  apply real_of_abs_lt_top
  rw [← inf_bits]
  exact h

/-- Under the precondition every float argument array of the idealized kernel program holds real numbers. -/
theorem args_real [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.AllReal (m ((c.tc : Thread nD τ).loc main_arg0))
    ∧ Cert.Spec.AllReal (m ((c.tc : Thread nD τ).loc main_arg2))
    ∧ Cert.Spec.AllReal (m ((c.tc : Thread nD τ).loc main_arg3))
    ∧ Cert.Spec.AllReal (m ((c.tc : Thread nD τ).loc main_arg4))
    ∧ Cert.Spec.AllReal (m ((c.tc : Thread nD τ).loc main_arg5))
    ∧ Cert.Spec.AllReal (m ((c.tc : Thread nD τ).loc main_arg6))
    ∧ Cert.Spec.AllReal (m ((c.tc : Thread nD τ).loc main_arg7))
    ∧ Cert.Spec.AllReal (m ((c.tc : Thread nD τ).loc main_arg8))
    ∧ Cert.Spec.AllReal (m ((c.tc : Thread nD τ).loc main_arg9)) := by
  have h := congrFun (hpre c) ix0
  dsimp only [Cert.Pre_finite_inputs.fn, Cert.Pre_finite_inputs.fn_part1, Cert.Pre_finite_inputs.fn_part2] at h
  obtain ⟨h, h9⟩ := andi_split _ _ _ h
  obtain ⟨h, h8⟩ := andi_split _ _ _ h
  obtain ⟨h, h7⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h0, h2⟩ := andi_split _ _ _ h
  exact ⟨allReal_of_test _ _ _ _ h0, allReal_of_test _ _ _ _ h2, allReal_of_test _ _ _ _ h3,
    allReal_of_test _ _ _ _ h4, allReal_of_test _ _ _ _ h5, allReal_of_test _ _ _ _ h6,
    allReal_of_test _ _ _ _ h7, allReal_of_test _ _ _ _ h8, allReal_of_test _ _ _ _ h9⟩

end Cert.Hand

end
-- ==== Proof.KRegion0.lean ====
/-
  REGION 0 (the first SAGE layer's dense part), as a whole-array function. At any contents `V` of the buffers when the
  region is entered, the output array after the region's 50 grid points is, at (node r, feature j),

      max (Σₖ agg(r,k)·W1l(k,j) + b1(0,j) + Σₖ x(r,k)·W1r(k,j), 0)

  of the five input arrays as the region finds them: grid point t computes rows 2000·t … 2000·t+1999 from the same
  rows of the two feature arrays and the whole weight and bias arrays (two matrix products into zero accumulators, the
  bias row spread over the rows, the rectifier; the casts to bf16 are the identity on the extended reals), and the 50
  blocks tile the 100000 rows.
-/
import proofs.«166485_j36979668418994_1_alg».proof.Proof.Gen.KernelIdeal.Frame
import proofs.«166485_j36979668418994_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Region0

/-! ## The block's matrix products: the operand indices of the dot -/

/-- The left operand's row is the output's row … -/
theorem dotL_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and its column the contraction index; -/
theorem dotL_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- the right operand's row is the contraction index … -/
theorem dotR_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and its column the output's column. -/
theorem dotR_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,256] × [256,256] product into the zero accumulator, at (row p, column q): Σₖ A(p,k)·B(k,q). -/
theorem matmul_zero_ix2 (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact dotL_row _ _
    | ⟨1, _⟩ => exact (dotL_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (dotR_row _ _).trans hk
    | ⟨1, _⟩ => exact dotR_col _ _)
  rw [el, er]

/-! ## The body at an index -/

/-- The body's stored value at (row p, feature q) of the block: the rectified sum of the two products and the bias row. -/
theorem k0_pay1_apply (a x : Vec Ideal S2000x256 .f32) (Wl Wr : Vec Ideal S256x256 .f32) (b : Vec Ideal S1x256 .f32)
    (p : Fin 2000) (q : Fin 256) :
    k0_pay1 (F := Ideal) a x Wl Wr b (ix2 p q)
      = max ((∑ k : Fin 256, a (ix2 p k) * Wl (ix2 k q)) + b (ix2 0 q) + ∑ k : Fin 256, x (ix2 p k) * Wr (ix2 k q)) 0 := by
  unfold k0_pay1
  simp only [shapeCast_self]
  rw [maximumf_apply, addf_apply, addf_apply, broadcast_apply, matmul_zero_ix2, matmul_zero_ix2,
    broadcastTo_1b_ab_apply]
  simp only [truncf_apply]
  rw [show (Scalar.ofBits (F := Ideal) .f32 0x00000000#32 : EReal) = 0 from Ideal.ofBits_zero_f32]

/-! ## From the blocks to the array -/

theorem zero_offsets : (![0, 0] : Fin 2 → Nat) = fun _ => 0 := funext fun a => by fin_cases a <;> rfl

/-- The first layer of the arrays the region is entered with, as one function of (node, feature). -/
abbrev layer1 (c : Dev nD) : S100000x256.Idx → EReal :=
  Cert.Spec.layer (K := 256) (H := 256) (V c main_v27) (V c main_arg0) (V c main_arg2) (V c main_arg3)
    (fun j => V c main_v28 (ix2 0 (j 0)))

/-- One block's stored value is the layer at the block's place in the array: when the block's rows of the two feature
    arrays are the arrays' rows r, and the weights and the bias are the whole arrays. -/
theorem block_layer (A X : S100000x256.Idx → EReal) (WL WR : S256x256.Idx → EReal) (B : S1x256.Idx → EReal)
    (a x : Vec Ideal S2000x256 .f32) (Wl Wr : Vec Ideal S256x256 .f32) (b : Vec Ideal S1x256 .f32)
    (p : Fin 2000) (q : Fin 256) (r : Fin 100000)
    (ha : ∀ k : Fin 256, a (ix2 p k) = A (ix2 r k)) (hx : ∀ k : Fin 256, x (ix2 p k) = X (ix2 r k))
    (hWl : ∀ k : Fin 256, Wl (ix2 k q) = WL (ix2 k q)) (hWr : ∀ k : Fin 256, Wr (ix2 k q) = WR (ix2 k q))
    (hb : b (ix2 0 q) = B (ix2 0 q)) :
    k0_pay1 (F := Ideal) a x Wl Wr b (ix2 p q)
      = Cert.Spec.layer (K := 256) (H := 256) A X WL WR (fun j => B (ix2 0 (j 0))) (ix2 r q) := by
  rw [k0_pay1_apply, Cert.Spec.layer_ix2]
  unfold Cert.Spec.lin
  simp only [ha, hx, hWl, hWr, hb]

/-- The windows' index maps over the grid: the two feature windows and the output move one block of rows per point, the
    weights and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of rows is some point's. -/
theorem index_onto : ∀ q0 : Fin 50, ∃ t : Fin cfg0.N, t.val = q0.val :=
  (by decide +kernel : ∀ q0 : Fin 50, ∃ t : Fin grid0.N, t.val = q0.val)

/-- What point t writes back is block t of the layer. -/
theorem flushed_layer (c : Dev nD) (t : Fin cfg0.N) :
    (dat0 (F := Ideal) V c).flushed 5 t = ((cfg0.win 5).blk t).view.read (Elt Ideal) (layer1 V c) := by
  show (cfg0.win 5).cut (grid0.coords t) ((dat0 V c).after 5 t) = _
  rw [after0_5]
  unfold out0_5
  rw [View.canon_unit_zero zero_offsets]
  simp only [View.ld_unit_zero (S := S2000x256) zero_offsets, View.ld_unit_zero (S := S256x256) zero_offsets,
    View.ld_unit_zero (S := S1x256) zero_offsets]
  obtain ⟨e00, e01, e10, e11, e20, e21, e30, e31, e40, e41, e50, e51⟩ := index_facts t
  have hN : t.val < 50 := t.isLt
  funext j
  obtain ⟨p, q, rfl⟩ : ∃ (p : Fin 2000) (q : Fin 256), j = ix2 p q := ⟨j 0, j 1, eq_ix2 j⟩
  have hp : p.val < 2000 := p.isLt
  have hq : q.val < 256 := q.isLt
  have hi : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay1 (F := Ideal) (iblk0 V c 0 t) (iblk0 V c 1 t) (iblk0 V c 2 t) (iblk0 V c 3 t) (iblk0 V c 4 t) (ix2 p q)
    = layer1 V c (((cfg0.win 5).blk t).view.emb (ix2 p q))
  rw [hi]
  refine block_layer (V c main_v27) (V c main_arg0) (V c main_arg2) (V c main_arg3) (V c main_v28)
    (iblk0 V c 0 t) (iblk0 V c 1 t) (iblk0 V c 2 t) (iblk0 V c 3 t) (iblk0 V c 4 t) p q _ ?_ ?_ ?_ ?_ ?_
  · intro k
    have hk : k.val < 256 := k.isLt
    show V c main_v27 (((cfg0.win 0).blk t).view.emb (ix2 p k)) = V c main_v27 (ix2 _ k)
    refine congrArg (V c main_v27) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · intro k
    have hk : k.val < 256 := k.isLt
    show V c main_arg0 (((cfg0.win 1).blk t).view.emb (ix2 p k)) = V c main_arg0 (ix2 _ k)
    refine congrArg (V c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 256 + 1 * k.val = k.val; omega
  · intro k
    have hk : k.val < 256 := k.isLt
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 256 + 1 * k.val = k.val; omega
    | ⟨1, _⟩ => show win0_2.index t (1 : Fin 2) * 256 + 1 * q.val = q.val; omega
  · intro k
    have hk : k.val < 256 := k.isLt
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 256 + 1 * k.val = k.val; omega
    | ⟨1, _⟩ => show win0_3.index t (1 : Fin 2) * 256 + 1 * q.val = q.val; omega
  · show V c main_v28 (((cfg0.win 4).blk t).view.emb (ix2 0 q)) = V c main_v28 (ix2 0 q)
    refine congrArg (V c main_v28) (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega

/-- An index of the array is in point t's block iff each coordinate is in the block's range on its axis. -/
theorem mem_block (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v29).slice (win0_5.rect t)).set ↔ _
  rw [View.set_slice_whole, Rect.mem_set_unit]
  exact Iff.rfl

/-- The fifty blocks of 2000 rows tile the 100000 rows: row r is in the block of point r / 2000. -/
theorem covered (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := index_onto ⟨(i 0).val / 2000, by omega⟩
  have ht' : t.val = (i 0).val / 2000 := ht
  obtain ⟨e00, e01, e10, e11, e20, e21, e30, e31, e40, e41, e50, e51⟩ := index_facts t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

end Region0

/-- Region 0's output array after its last grid point: the first layer of the arrays the region was entered with. -/
theorem region0_array (c : Dev nD) :
    (dat0 (F := Ideal) V c).arrAt 5 cfg0.N
      = Cert.Spec.layer (K := 256) (H := 256) (V c main_v27) (V c main_arg0) (V c main_arg2) (V c main_arg3)
          (fun j => V c main_v28 (ix2 0 (j 0))) :=
  (dat0 (F := Ideal) V c).arrAt_eq_of_cover 5 (Region0.layer1 V c) (fun t _ => Region0.flushed_layer V c t) Region0.covered

end Cert.KernelIdeal.Hand

end
-- ==== Proof.KPay1.lean ====
/-
  REGION 1's BODY AT AN INDEX. On one block of 2000 rows the body computes, from the block's rows of the aggregated
  features `a` and of the first layer's output `h`, the whole second-layer weights `Wl`, `Wr`, the bias row `b`, the
  classifier's weights `Wc` and its bias row `bc`:

      h2(p,j)    = max (Σₖ a(p,k)·Wl(k,j) + b(0,j) + Σₖ h(p,k)·Wr(k,j), 0)            (two matrix products into zero, casts the identity)
      logit(p,c) = Σₖ h2(p,k)·Wc(k,c) + bc(0,c)
      M(p)       = max (logit(p,0), logit(p,1))                                      (a fold of max from −∞ over the two classes)
      S(p)       = log (exp (logit(p,0) − M(p)) + exp (logit(p,1) − M(p)))
      stored(p,c) = logit(p,c) − (M(p) + S(p)).
-/
import proofs.«166485_j36979668418994_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The block's second-layer output at (row p, feature j). -/
def blkH2 (a h : Vec Ideal S2000x256 .f32) (Wl Wr : Vec Ideal S256x128 .f32) (b : Vec Ideal S1x128 .f32)
    (p : Fin 2000) (j : Fin 128) : EReal :=
  max ((∑ k : Fin 256, a (ix2 p k) * Wl (ix2 k j)) + b (ix2 0 j) + ∑ k : Fin 256, h (ix2 p k) * Wr (ix2 k j)) 0

/-- The block's logit at (row p, class c). -/
def blkLogit (a h : Vec Ideal S2000x256 .f32) (Wl Wr : Vec Ideal S256x128 .f32) (b : Vec Ideal S1x128 .f32)
    (Wc : Vec Ideal S128x2 .f32) (bc : Vec Ideal S1x2 .f32) (p : Fin 2000) (c : Fin 2) : EReal :=
  (∑ k : Fin 128, blkH2 a h Wl Wr b p k * Wc (ix2 k c)) + bc (ix2 0 c)

namespace Pay1

/-! ## The two matrix products read at an index -/

theorem lhs_l2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_l2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_l2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_l2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product [2000,256]·[256,128] into the zero block, read at (p, j): the sum over the contracted coordinate. -/
theorem matmul_l2_apply (x : FVec Ideal S2000x256 .bf16) (w : FVec Ideal S256x128 .bf16) (p : Fin 2000) (j : Fin 128) :
    matmul dot_S2000x256_S256x128_S2000x128_1_0_0_1_n_n none x w (constant (F := Ideal) S2000x128 .f32 0x00000000#32) (ix2 p j)
      = ∑ k : Fin 256, x (ix2 p k) * w (ix2 k j) := by
  refine (Ideal.matmul_constant_zero_apply dot_S2000x256_S256x128_S2000x128_1_0_0_1_n_n none x w (ix2 p j)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k := funext fun a => Fin.ext (by
    match a with
    | ⟨0, _⟩ => exact lhs_l2_0 _ _
    | ⟨1, _⟩ => exact (lhs_l2_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j := funext fun a => Fin.ext (by
    match a with
    | ⟨0, _⟩ => exact (rhs_l2_0 _ _).trans hk
    | ⟨1, _⟩ => exact rhs_l2_1 _ _)
  rw [el, er]

theorem lhs_cls_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_cls_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_cls_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_cls_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The product [2000,128]·[128,2] into the zero block, read at (p, j): the sum over the contracted coordinate. -/
theorem matmul_cls_apply (x : FVec Ideal S2000x128 .bf16) (w : FVec Ideal S128x2 .bf16) (p : Fin 2000) (j : Fin 2) :
    matmul dot_S2000x128_S128x2_S2000x2_1_0_0_1_n_n none x w (constant (F := Ideal) S2000x2 .f32 0x00000000#32) (ix2 p j)
      = ∑ k : Fin 128, x (ix2 p k) * w (ix2 k j) := by
  refine (Ideal.matmul_constant_zero_apply dot_S2000x128_S128x2_S2000x2_1_0_0_1_n_n none x w (ix2 p j)).trans ?_
  rw [← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p j) ((contrEquiv1 dot_S2000x128_S128x2_S2000x2_1_0_0_1_n_n 128 rfl rfl).symm k) = ix2 p k := funext fun a => Fin.ext (by
    match a with
    | ⟨0, _⟩ => exact lhs_cls_0 _ _
    | ⟨1, _⟩ => exact (lhs_cls_1 _ _).trans hk)
  have er : dot_S2000x128_S128x2_S2000x2_1_0_0_1_n_n.rhsIdx (ix2 p j) ((contrEquiv1 dot_S2000x128_S128x2_S2000x2_1_0_0_1_n_n 128 rfl rfl).symm k) = ix2 k j := funext fun a => Fin.ext (by
    match a with
    | ⟨0, _⟩ => exact (rhs_cls_0 _ _).trans hk
    | ⟨1, _⟩ => exact rhs_cls_1 _ _)
  rw [el, er]

/-! ## The keepdims layout steps read at an index -/

/-- An `[n]` vector cast to the column `[n, 1]` reads, at `(p, u)`, the operand at `p`. -/
theorem shapeCast_a_a1_apply {α : Type} {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[n, 1]` broadcast to `[n, m]` reads, at `(p, c)`, the column at `p`. -/
theorem broadcastTo_a1_ab_apply {α : Type} {n m : ℕ} (v : (⟨2, ![n, 1]⟩ : Shape).Idx → α) (h : (⟨2, ![n, 1]⟩ : Shape).Broadcasts ⟨2, ![n, m]⟩)
    (p : Fin n) (c : Fin m) : broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-! ## The two row reductions over the two classes -/

/-- The index over row `p` with class `k` inserted is `(p, k)`. -/
theorem lift_row (p : Fin 2000) (k : Fin 2) : Gen.reduces_S2000x2_S2000.lift (ix1 p) k = ix2 p k :=
  funext fun a => Fin.ext (by
    match a with
    | ⟨0, _⟩ => rfl
    | ⟨1, _⟩ => rfl)

/-- The pattern 0xFF800000 is −∞. -/
theorem ofBits_neg_inf_f32 : Ideal.ofBits .f32 0xFF800000#32 = ⊥ := by simp [Ideal.ofBits, Ideal.ieee]

/-- A fold of `max` from −∞ over two points is the larger of the two values. -/
theorem fold_max_bot_fin2 (f : Fin 2 → EReal) : (Finset.univ : Finset (Fin 2)).fold max ⊥ f = max (f 0) (f 1) := by
  rw [show (Finset.univ : Finset (Fin 2)) = {0, 1} from by decide]
  rw [Finset.fold_insert (by decide), Finset.fold_singleton]
  rw [max_bot_right]

/-- The row maximum from −∞ over the two classes, at row `p`. -/
theorem rowMax_apply (L : FVec Ideal S2000x2 .f32) (hφ : FKind.Formats .f32)
    (hacc : (0xFF800000#32 : BitVec 32) = FKind.maximumf.neutral .f32 hφ) (p : Fin 2000) :
    multiReduction (F := Ideal) .maximumf [1] S2000 L 0xFF800000#32 Gen.reduces_S2000x2_S2000 hφ hacc (ix1 p)
      = max (L (ix2 p 0)) (L (ix2 p 1)) := by
  refine (Ideal.multiReduction_maximumf_single L 0xFF800000#32 Gen.reduces_S2000x2_S2000 hφ hacc (ix1 p)).trans ?_
  refine (congrArg (fun z => (Finset.univ : Finset (Fin 2)).fold max z (fun k => L (Gen.reduces_S2000x2_S2000.lift (ix1 p) k)))
    ofBits_neg_inf_f32).trans ?_
  refine (fold_max_bot_fin2 _).trans ?_
  exact congrArg₂ max (congrArg L (lift_row p 0)) (congrArg L (lift_row p 1))

/-- The row sum over the two classes, at row `p`. -/
theorem rowSum_apply (E : FVec Ideal S2000x2 .f32) (hφ : FKind.Formats .f32)
    (hacc : (0x00000000#32 : BitVec 32) = FKind.add.neutral .f32 hφ) (p : Fin 2000) :
    multiReduction (F := Ideal) .add [1] S2000 E 0x00000000#32 Gen.reduces_S2000x2_S2000 hφ hacc (ix1 p)
      = E (ix2 p 0) + E (ix2 p 1) := by
  refine (Ideal.multiReduction_add_single E 0x00000000#32 Gen.reduces_S2000x2_S2000 hφ hacc (ix1 p)).trans ?_
  refine (Fin.sum_univ_two (fun k : Fin 2 => E (Gen.reduces_S2000x2_S2000.lift (ix1 p) k))).trans ?_
  exact congrArg₂ (· + ·) (congrArg E (lift_row p 0)) (congrArg E (lift_row p 1))

/-! ## The body's three stages, as the body spells them -/

/-- The second layer's block as the body computes it: two products into zero, the bias row spread over the rows, the rectifier. -/
def h2V (a h : Vec Ideal S2000x256 .f32) (Wl Wr : Vec Ideal S256x128 .f32) (b : Vec Ideal S1x128 .f32) : FVec Ideal S2000x128 .f32 :=
  maximumf
    (addf
      (addf
        (matmul dot_S2000x256_S256x128_S2000x128_1_0_0_1_n_n none
          (truncf .bf16 (shapeCast S2000x256 a Gen.shapeCasts_S2000x256_S2000x256) Gen.bitsLt_bf16_f32)
          (truncf .bf16 Wl Gen.bitsLt_bf16_f32) (constant (F := Ideal) S2000x128 .f32 0x00000000#32))
        (broadcastTo S2000x128 (shapeCast S1x128 b Gen.shapeCasts_S1x128_S1x128) Gen.broadcasts_S1x128_S2000x128))
      (matmul dot_S2000x256_S256x128_S2000x128_1_0_0_1_n_n none
        (truncf .bf16 (shapeCast S2000x256 h Gen.shapeCasts_S2000x256_S2000x256) Gen.bitsLt_bf16_f32)
        (truncf .bf16 Wr Gen.bitsLt_bf16_f32) (constant (F := Ideal) S2000x128 .f32 0x00000000#32)))
    (broadcast S2000x128 (Scalar.ofBits (F := Ideal) .f32 0x00000000#32))

/-- The logits' block as the body computes it from the second layer's block. -/
def logitV (H : FVec Ideal S2000x128 .f32) (Wc : Vec Ideal S128x2 .f32) (bc : Vec Ideal S1x2 .f32) : FVec Ideal S2000x2 .f32 :=
  addf
    (matmul dot_S2000x128_S128x2_S2000x2_1_0_0_1_n_n none (truncf .bf16 H Gen.bitsLt_bf16_f32) (truncf .bf16 Wc Gen.bitsLt_bf16_f32)
      (constant (F := Ideal) S2000x2 .f32 0x00000000#32))
    (broadcastTo S2000x2 (shapeCast S1x2 bc Gen.shapeCasts_S1x2_S1x2) Gen.broadcasts_S1x2_S2000x2)

/-- The row maxima as a column. -/
def maxCol (L : FVec Ideal S2000x2 .f32) : FVec Ideal S2000x1 .f32 :=
  shapeCast S2000x1 (multiReduction (F := Ideal) .maximumf [1] S2000 L 0xFF800000#32 Gen.reduces_S2000x2_S2000 (.inl rfl) rfl)
    Gen.shapeCasts_S2000_S2000x1

/-- The rows' sums of exponentials of the shifted logits, as a column. -/
def sumCol (L : FVec Ideal S2000x2 .f32) : FVec Ideal S2000x1 .f32 :=
  shapeCast S2000x1
    (multiReduction (F := Ideal) .add [1] S2000
      (exp (subf L (broadcastTo S2000x2 (maxCol L) Gen.broadcasts_S2000x1_S2000x2)))
      0x00000000#32 Gen.reduces_S2000x2_S2000 (.inl rfl) rfl)
    Gen.shapeCasts_S2000_S2000x1

/-- The joined log-softmax as the body computes it from the logits' block. -/
def tailV (L : FVec Ideal S2000x2 .f32) : FVec Ideal S2000x2 .f32 :=
  subf L (broadcastTo S2000x2 (addf (maxCol L) (log (sumCol L))) Gen.broadcasts_S2000x1_S2000x2)

/-- The body's value is the three stages composed. -/
theorem k1_pay1_eq_stages (a h : Vec Ideal S2000x256 .f32) (Wl Wr : Vec Ideal S256x128 .f32) (b : Vec Ideal S1x128 .f32)
    (Wc : Vec Ideal S128x2 .f32) (bc : Vec Ideal S1x2 .f32) :
    k1_pay1 (F := Ideal) a h Wl Wr b Wc bc = tailV (logitV (h2V a h Wl Wr b) Wc bc) := rfl

/-! ## Each stage read at an index -/

theorem h2V_apply (a h : Vec Ideal S2000x256 .f32) (Wl Wr : Vec Ideal S256x128 .f32) (b : Vec Ideal S1x128 .f32)
    (p : Fin 2000) (j : Fin 128) : h2V a h Wl Wr b (ix2 p j) = blkH2 a h Wl Wr b p j := by
  unfold h2V blkH2
  rw [maximumf_apply, addf_apply, addf_apply, broadcast_apply, matmul_l2_apply, matmul_l2_apply,
    shapeCast_self, shapeCast_self, shapeCast_self, broadcastTo_1b_ab_apply]
  simp only [truncf_apply]
  show max _ (Ideal.ofBits .f32 0x00000000#32) = _
  rw [Ideal.ofBits_zero_f32]

theorem logitV_apply (H : FVec Ideal S2000x128 .f32) (Wc : Vec Ideal S128x2 .f32) (bc : Vec Ideal S1x2 .f32)
    (p : Fin 2000) (c : Fin 2) : logitV H Wc bc (ix2 p c) = (∑ k : Fin 128, H (ix2 p k) * Wc (ix2 k c)) + bc (ix2 0 c) := by
  unfold logitV
  rw [addf_apply, matmul_cls_apply, shapeCast_self, broadcastTo_1b_ab_apply]
  simp only [truncf_apply]

theorem maxCol_apply (L : FVec Ideal S2000x2 .f32) (p : Fin 2000) (u : Fin 1) :
    maxCol L (ix2 p u) = max (L (ix2 p 0)) (L (ix2 p 1)) := by
  unfold maxCol
  refine (shapeCast_a_a1_apply _ Gen.shapeCasts_S2000_S2000x1 p u).trans ?_
  exact rowMax_apply L _ _ p

theorem sumCol_apply (L : FVec Ideal S2000x2 .f32) (p : Fin 2000) (u : Fin 1) :
    sumCol L (ix2 p u)
      = Ideal.exp (L (ix2 p 0) - max (L (ix2 p 0)) (L (ix2 p 1))) + Ideal.exp (L (ix2 p 1) - max (L (ix2 p 0)) (L (ix2 p 1))) := by
  unfold sumCol
  refine (shapeCast_a_a1_apply _ Gen.shapeCasts_S2000_S2000x1 p u).trans ?_
  refine (rowSum_apply _ _ _ p).trans ?_
  have e : ∀ c : Fin 2, exp (subf L (broadcastTo S2000x2 (maxCol L) Gen.broadcasts_S2000x1_S2000x2)) (ix2 p c)
      = Ideal.exp (L (ix2 p c) - max (L (ix2 p 0)) (L (ix2 p 1))) := fun c => by
    show Ideal.exp (L (ix2 p c) - broadcastTo S2000x2 (maxCol L) Gen.broadcasts_S2000x1_S2000x2 (ix2 p c)) = _
    rw [broadcastTo_a1_ab_apply, maxCol_apply]
  rw [e 0, e 1]

theorem tailV_apply (L : FVec Ideal S2000x2 .f32) (p : Fin 2000) (c : Fin 2) :
    tailV L (ix2 p c)
      = L (ix2 p c) - (max (L (ix2 p 0)) (L (ix2 p 1))
          + Ideal.log (Ideal.exp (L (ix2 p 0) - max (L (ix2 p 0)) (L (ix2 p 1))) + Ideal.exp (L (ix2 p 1) - max (L (ix2 p 0)) (L (ix2 p 1))))) := by
  unfold tailV
  rw [subf_apply, broadcastTo_a1_ab_apply, addf_apply, maxCol_apply]
  show _ - (_ + Ideal.log (sumCol L (ix2 p (0 : Fin 1)))) = _
  rw [sumCol_apply]

theorem logit_stage_apply (a h : Vec Ideal S2000x256 .f32) (Wl Wr : Vec Ideal S256x128 .f32) (b : Vec Ideal S1x128 .f32)
    (Wc : Vec Ideal S128x2 .f32) (bc : Vec Ideal S1x2 .f32) (p : Fin 2000) (c : Fin 2) :
    logitV (h2V a h Wl Wr b) Wc bc (ix2 p c) = blkLogit a h Wl Wr b Wc bc p c := by
  rw [logitV_apply]
  unfold blkLogit
  simp only [h2V_apply]

end Pay1

/-- The body's stored value at (row p, class c): the joined log-softmax of the block's logits. -/
theorem k1_pay1_apply (a h : Vec Ideal S2000x256 .f32) (Wl Wr : Vec Ideal S256x128 .f32) (b : Vec Ideal S1x128 .f32)
    (Wc : Vec Ideal S128x2 .f32) (bc : Vec Ideal S1x2 .f32) (p : Fin 2000) (c : Fin 2) :
    k1_pay1 (F := Ideal) a h Wl Wr b Wc bc (ix2 p c)
      = blkLogit a h Wl Wr b Wc bc p c
        - (max (blkLogit a h Wl Wr b Wc bc p 0) (blkLogit a h Wl Wr b Wc bc p 1)
          + Ideal.log (Ideal.exp (blkLogit a h Wl Wr b Wc bc p 0 - max (blkLogit a h Wl Wr b Wc bc p 0) (blkLogit a h Wl Wr b Wc bc p 1))
              + Ideal.exp (blkLogit a h Wl Wr b Wc bc p 1 - max (blkLogit a h Wl Wr b Wc bc p 0) (blkLogit a h Wl Wr b Wc bc p 1)))) := by
  rw [Pay1.k1_pay1_eq_stages, Pay1.tailV_apply, Pay1.logit_stage_apply, Pay1.logit_stage_apply, Pay1.logit_stage_apply]

end Cert.KernelIdeal.Hand

end
-- ==== Proof.KRegion1.lean ====
/-
  REGION 1 (the second SAGE layer's dense part, the classifier and the log-softmax), as a whole-array function. At any
  contents `V` of the buffers when the region is entered, the output array after the region's 50 grid points is the
  log-softmax, subtracted as logit − (M + S), of

      logit(r,c) = Σₖ h2(r,k)·Wc(k,c) + bc(0,c),   h2(r,j) = max (Σₖ agg(r,k)·W2l(k,j) + b2(0,j) + Σₖ h1(r,k)·W2r(k,j), 0)

  of the seven input arrays as the region finds them: grid point t computes rows 2000·t … 2000·t+1999 from the same
  rows of the two feature arrays and the whole weight and bias arrays; along the two classes the maximum is the larger of
  the two logits (a fold of max from −∞) and the sum the sum of the two exponentials; the 50 blocks tile the 100000 rows.
-/
import proofs.«166485_j36979668418994_1_alg».proof.Proof.Gen.KernelIdeal.Frame
import proofs.«166485_j36979668418994_1_alg».proof.Proof.Spec
import proofs.«166485_j36979668418994_1_alg».proof.Proof.KPay1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

open scoped BigOperators

/-- One row of one block: when row p of the two feature blocks is row r of the two feature arrays, the stored value at
    (p, q) is the joined log-softmax of the classifier of the second layer at (r, q). -/
theorem pay_at_row (a h : Vec Ideal S2000x256 .f32) (Wl Wr : Vec Ideal S256x128 .f32) (b : Vec Ideal S1x128 .f32)
    (Wc : Vec Ideal S128x2 .f32) (bc : Vec Ideal S1x2 .f32)
    (A H : S100000x256.Idx → EReal) (r : Fin 100000) (p : Fin 2000)
    (ha : ∀ k : Fin 256, a (ix2 p k) = A (ix2 r k)) (hh : ∀ k : Fin 256, h (ix2 p k) = H (ix2 r k)) (q : Fin 2) :
    k1_pay1 (F := Ideal) a h Wl Wr b Wc bc (ix2 p q)
      = Cert.Spec.lsmJoined (Cert.Spec.logit (Cert.Spec.layer (K := 256) (H := 128) A H Wl Wr (fun j => b (ix2 0 (j 0))))
          Wc (fun j => bc (ix2 0 (j 0)))) (ix2 r q) := by
  have hH2 : ∀ j : Fin 128, blkH2 a h Wl Wr b p j
      = Cert.Spec.layer (K := 256) (H := 128) A H Wl Wr (fun j => b (ix2 0 (j 0))) (ix2 r j) := by
    intro j
    rw [Cert.Spec.layer_ix2]
    unfold blkH2 Cert.Spec.lin
    simp only [ha, hh]
  have hL : ∀ c : Fin 2, blkLogit a h Wl Wr b Wc bc p c
      = Cert.Spec.logit (Cert.Spec.layer (K := 256) (H := 128) A H Wl Wr (fun j => b (ix2 0 (j 0)))) Wc
          (fun j => bc (ix2 0 (j 0))) (ix2 r c) := by
    intro c
    rw [Cert.Spec.logit_ix2]
    unfold blkLogit
    simp only [hH2]
  rw [k1_pay1_apply]
  simp only [hL]
  rfl

/-- One block: when the two feature blocks are rows 2000·T … 2000·T+1999 of the two feature arrays and the weight and
    bias blocks are the whole weight and bias arrays, the stored block is the same rows of the joined log-softmax. -/
theorem pay_at_block (a h : Vec Ideal S2000x256 .f32) (Wl Wr : Vec Ideal S256x128 .f32) (b : Vec Ideal S1x128 .f32)
    (Wc : Vec Ideal S128x2 .f32) (bc : Vec Ideal S1x2 .f32)
    (A H : S100000x256.Idx → EReal) (WL WR : S256x128.Idx → EReal) (B : S1x128.Idx → EReal)
    (WC : S128x2.Idx → EReal) (BC : S1x2.Idx → EReal) (T : Nat)
    (ea eh : S2000x256.Idx → S100000x256.Idx)
    (ha : ∀ z, a z = A (ea z)) (hea0 : ∀ z, (ea z 0).val = T * 2000 + (z 0).val) (hea1 : ∀ z, (ea z 1).val = (z 1).val)
    (hh : ∀ z, h z = H (eh z)) (heh0 : ∀ z, (eh z 0).val = T * 2000 + (z 0).val) (heh1 : ∀ z, (eh z 1).val = (z 1).val)
    (hWl : ∀ z, Wl z = WL z) (hWr : ∀ z, Wr z = WR z) (hb : ∀ z, b z = B z) (hWc : ∀ z, Wc z = WC z)
    (hbc : ∀ z, bc z = BC z)
    (y : S2000x2.Idx) (i : S100000x2.Idx) (hi0 : (i 0).val = T * 2000 + (y 0).val) (hi1 : (i 1).val = (y 1).val) :
    k1_pay1 (F := Ideal) a h Wl Wr b Wc bc y
      = Cert.Spec.lsmJoined (Cert.Spec.logit (Cert.Spec.layer (K := 256) (H := 128) A H WL WR (fun j => B (ix2 0 (j 0))))
          WC (fun j => BC (ix2 0 (j 0)))) i := by
  obtain rfl : Wl = WL := funext hWl
  obtain rfl : Wr = WR := funext hWr
  obtain rfl : b = B := funext hb
  obtain rfl : Wc = WC := funext hWc
  obtain rfl : bc = BC := funext hbc
  obtain ⟨p, q, rfl⟩ : ∃ (p : Fin 2000) (q : Fin 2), y = ix2 p q := ⟨y 0, y 1, eq_ix2 y⟩
  obtain ⟨r, q', rfl⟩ : ∃ (r : Fin 100000) (q' : Fin 2), i = ix2 r q' := ⟨i 0, i 1, eq_ix2 i⟩
  obtain rfl : q' = q := Fin.ext hi1
  have hr : r.val = T * 2000 + p.val := hi0
  refine pay_at_row a h Wl Wr b Wc bc A H r p (fun k => ?_) (fun k => ?_) q'
  · rw [ha]; congr 1; funext d; apply Fin.ext
    match d with
    | ⟨0, _⟩ => exact (hea0 (ix2 p k)).trans hr.symm
    | ⟨1, _⟩ => exact hea1 (ix2 p k)
  · rw [hh]; congr 1; funext d; apply Fin.ext
    match d with
    | ⟨0, _⟩ => exact (heh0 (ix2 p k)).trans hr.symm
    | ⟨1, _⟩ => exact heh1 (ix2 p k)

/-- The zero offset on both axes. -/
theorem hzero : (![0, 0] : Fin 2 → Nat) = fun _ => 0 := funext fun a => by fin_cases a <;> rfl

/-- The region's output as one function of the arrays it was entered with. -/
abbrev G1 (c : Dev nD) : S100000x2.Idx → EReal :=
  Cert.Spec.lsmJoined (Cert.Spec.logit
    (Cert.Spec.layer (K := 256) (H := 128) (V c main_v42) (V c main_v29) (V c main_arg5) (V c main_arg6)
      (fun j => V c main_v43 (ix2 0 (j 0))))
    (V c main_arg8) (fun j => V c main_v44 (ix2 0 (j 0))))

/-- The index maps over the grid: the two feature windows and the output window are at block t along the rows and at
    block 0 along the columns; the weight and bias windows are at block 0 on both axes. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What grid point t writes back is block t of the whole-array function. -/
theorem flushed1 (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  unfold out1_7
  rw [View.canon_unit_zero hzero]
  simp only [View.ld_unit_zero (S := S2000x256) hzero, View.ld_unit_zero (S := S256x128) hzero,
    View.ld_unit_zero (S := S1x128) hzero, View.ld_unit_zero (S := S128x2) hzero, View.ld_unit_zero (S := S1x2) hzero]
  obtain ⟨e00, e01, e10, e11, e20, e21, e30, e31, e40, e41, e50, e51, e60, e61, e70, e71⟩ := idx_facts1 t
  have ha0 : ∀ z : S2000x256.Idx, (((cfg1.win 0).blk t).view.emb z 0).val = t.val * 2000 + (z 0).val := by
    intro z; show win1_0.index t (0 : Fin 2) * 2000 + 1 * (z 0).val = _; omega
  have ha1 : ∀ z : S2000x256.Idx, (((cfg1.win 0).blk t).view.emb z 1).val = (z 1).val := by
    intro z; show win1_0.index t (1 : Fin 2) * 256 + 1 * (z 1).val = _; omega
  have hh0 : ∀ z : S2000x256.Idx, (((cfg1.win 1).blk t).view.emb z 0).val = t.val * 2000 + (z 0).val := by
    intro z; show win1_1.index t (0 : Fin 2) * 2000 + 1 * (z 0).val = _; omega
  have hh1 : ∀ z : S2000x256.Idx, (((cfg1.win 1).blk t).view.emb z 1).val = (z 1).val := by
    intro z; show win1_1.index t (1 : Fin 2) * 256 + 1 * (z 1).val = _; omega
  have hw2 : ∀ z : S256x128.Idx, iblk1 V c 2 t z = V c main_arg5 z := by
    intro z
    show V c main_arg5 (((cfg1.win 2).blk t).view.emb z) = V c main_arg5 z
    congr 1; funext d; apply Fin.ext
    match d with
    | ⟨0, _⟩ => show win1_2.index t (0 : Fin 2) * 256 + 1 * (z 0).val = (z 0).val; omega
    | ⟨1, _⟩ => show win1_2.index t (1 : Fin 2) * 128 + 1 * (z 1).val = (z 1).val; omega
  have hw3 : ∀ z : S256x128.Idx, iblk1 V c 3 t z = V c main_arg6 z := by
    intro z
    show V c main_arg6 (((cfg1.win 3).blk t).view.emb z) = V c main_arg6 z
    congr 1; funext d; apply Fin.ext
    match d with
    | ⟨0, _⟩ => show win1_3.index t (0 : Fin 2) * 256 + 1 * (z 0).val = (z 0).val; omega
    | ⟨1, _⟩ => show win1_3.index t (1 : Fin 2) * 128 + 1 * (z 1).val = (z 1).val; omega
  have hw4 : ∀ z : S1x128.Idx, iblk1 V c 4 t z = V c main_v43 z := by
    intro z
    show V c main_v43 (((cfg1.win 4).blk t).view.emb z) = V c main_v43 z
    congr 1; funext d; apply Fin.ext
    match d with
    | ⟨0, _⟩ => show win1_4.index t (0 : Fin 2) * 1 + 1 * (z 0).val = (z 0).val; omega
    | ⟨1, _⟩ => show win1_4.index t (1 : Fin 2) * 128 + 1 * (z 1).val = (z 1).val; omega
  have hw5 : ∀ z : S128x2.Idx, iblk1 V c 5 t z = V c main_arg8 z := by
    intro z
    show V c main_arg8 (((cfg1.win 5).blk t).view.emb z) = V c main_arg8 z
    congr 1; funext d; apply Fin.ext
    match d with
    | ⟨0, _⟩ => show win1_5.index t (0 : Fin 2) * 128 + 1 * (z 0).val = (z 0).val; omega
    | ⟨1, _⟩ => show win1_5.index t (1 : Fin 2) * 2 + 1 * (z 1).val = (z 1).val; omega
  have hw6 : ∀ z : S1x2.Idx, iblk1 V c 6 t z = V c main_v44 z := by
    intro z
    show V c main_v44 (((cfg1.win 6).blk t).view.emb z) = V c main_v44 z
    congr 1; funext d; apply Fin.ext
    match d with
    | ⟨0, _⟩ => show win1_6.index t (0 : Fin 2) * 1 + 1 * (z 0).val = (z 0).val; omega
    | ⟨1, _⟩ => show win1_6.index t (1 : Fin 2) * 2 + 1 * (z 1).val = (z 1).val; omega
  funext y
  have hy0 : (((cfg1.win 7).blk t).view.emb y 0).val = t.val * 2000 + (y 0).val := by
    show win1_7.index t (0 : Fin 2) * 2000 + 1 * (y 0).val = _; omega
  have hy1 : (((cfg1.win 7).blk t).view.emb y 1).val = (y 1).val := by
    show win1_7.index t (1 : Fin 2) * 2 + 1 * (y 1).val = _; omega
  exact pay_at_block (iblk1 V c 0 t) (iblk1 V c 1 t) (iblk1 V c 2 t) (iblk1 V c 3 t) (iblk1 V c 4 t) (iblk1 V c 5 t)
    (iblk1 V c 6 t) (V c main_v42) (V c main_v29) (V c main_arg5) (V c main_arg6) (V c main_v43) (V c main_arg8)
    (V c main_v44) t.val ((cfg1.win 0).blk t).view.emb ((cfg1.win 1).blk t).view.emb
    (fun _ => rfl) ha0 ha1 (fun _ => rfl) hh0 hh1 hw2 hw3 hw4 hw5 hw6 y (((cfg1.win 7).blk t).view.emb y) hy0 hy1

/-- An index of the output array is in grid point t's block iff each coordinate is in the block's range on its axis. -/
theorem mem_blk1 (t : Fin cfg1.N) (i : S100000x2.Idx) :
    i ∈ ((cfg1.win 7).blk t).view.set ↔ ∀ a : Fin 2, win1_7.index t a * S2000x2.size a ≤ (i a).val
      ∧ (i a).val < win1_7.index t a * S2000x2.size a + S2000x2.size a := by
  show i ∈ ((View.whole main_v45).slice (win1_7.rect t)).set ↔ _
  rw [View.set_slice_whole, Rect.mem_set_unit]
  exact Iff.rfl

/-- The 50 blocks of 2000 rows tile the 100000 rows: row r is in the block of grid point r / 2000. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, -, -, -, -, -, -, -, -, -, -, e70, e71⟩ := idx_facts1 t
  refine ⟨t, flush1_7 t, ?_⟩
  rw [mem_blk1]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 2 ≤ (i 1).val ∧ (i 1).val < win1_7.index t (1 : Fin 2) * 2 + 2
    omega

/-- Region 1's output array after its last grid point: the joined log-softmax of the classifier of the second layer of
    the arrays the region was entered with. -/
theorem region1_array (c : Dev nD) :
    (dat1 (F := Ideal) V c).arrAt 7 cfg1.N
      = Cert.Spec.lsmJoined (Cert.Spec.logit
          (Cert.Spec.layer (K := 256) (H := 128) (V c main_v42) (V c main_v29) (V c main_arg5) (V c main_arg6)
            (fun j => V c main_v43 (ix2 0 (j 0))))
          (V c main_arg8) (fun j => V c main_v44 (ix2 0 (j 0)))) :=
  (dat1 (F := Ideal) V c).arrAt_eq_of_cover 7 (G1 V c) (fun t _ => flushed1 V c t) cover1

end Cert.KernelIdeal.Hand

end
-- ==== Proof.KHost.lean ====
/-
  THE KERNEL PROGRAM'S HOST SIDE: what each region finds in its input arrays.

  Region 0 is entered after the first three stretches of host operations. Its first window's array is the aggregation of
  the node features `x` over the edge list; the others are `x`, the two first-layer weight arrays, and the bias as one row.
  Region 1 is entered after one more stretch, which recomputes the same aggregation, now of region 0's output array:
  its windows' arrays are that aggregation, region 0's output array itself, the second-layer weights, the second bias as
  one row, the classifier's weights and its bias as one row. No host operation and no region writes an argument array.
-/
import proofs.«166485_j36979668418994_1_alg».proof.Proof.Gen.KernelIdeal.Frame
import proofs.«166485_j36979668418994_1_alg».proof.Proof.Agg
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of a stretch writes the named buffer: every operation's one result reference is another one. -/
local macro "not_written" : tactic => `(tactic| (
  refine List.forall_iff_forall_mem.mp ?_
  simp only [hostOps0, hostOps0_1, hostOps0_2, hostOps1, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- A buffer none of the first three stretches writes is, at region 0's entry, what was launched. -/
private theorem W3_of_not_written (c : Dev nD) (r : Ref sig .tc)
    (h0 : ∀ op ∈ (hostOps0 : List (HloOp τ sig (Elt F))), Proc.devRef .tc r ∉ op.writes)
    (h1 : ∀ op ∈ (hostOps0_1 : List (HloOp τ sig (Elt F))), Proc.devRef .tc r ∉ op.writes)
    (h2 : ∀ op ∈ (hostOps0_2 : List (HloOp τ sig (Elt F))), Proc.devRef .tc r ∉ op.writes) :
    W3 m ρ c (Proc.devRef .tc r) = m ((c.tc : Thread nD τ).loc r) :=
  calc W3 m ρ c (Proc.devRef .tc r)
    _ = W2 m ρ c (Proc.devRef .tc r) := StableHlo.after_of_forall_not_mem _ _ h2
    _ = W1 m ρ c (Proc.devRef .tc r) := StableHlo.after_of_forall_not_mem _ _ h1
    _ = W0 m ρ c (Proc.devRef .tc r) := StableHlo.after_of_forall_not_mem _ _ h0
    _ = m ((c.tc : Thread nD τ).loc r) := rfl

/-- A buffer no stretch writes and region 0 does not hold is, at region 1's entry, what was launched. -/
private theorem W5_of_not_written (c : Dev nD) (r : Ref sig .tc) (hr : ∀ w, Pipeline.arrRef spec0 w ≠ r)
    (h0 : ∀ op ∈ (hostOps0 : List (HloOp τ sig (Elt F))), Proc.devRef .tc r ∉ op.writes)
    (h1 : ∀ op ∈ (hostOps0_1 : List (HloOp τ sig (Elt F))), Proc.devRef .tc r ∉ op.writes)
    (h2 : ∀ op ∈ (hostOps0_2 : List (HloOp τ sig (Elt F))), Proc.devRef .tc r ∉ op.writes)
    (h3 : ∀ op ∈ (hostOps1 : List (HloOp τ sig (Elt F))), Proc.devRef .tc r ∉ op.writes) :
    W5 m ρ c (Proc.devRef .tc r) = m ((c.tc : Thread nD τ).loc r) :=
  calc W5 m ρ c (Proc.devRef .tc r)
    _ = W4 m ρ c (Proc.devRef .tc r) := StableHlo.after_of_forall_not_mem _ _ h3
    _ = W3 m ρ c (Proc.devRef .tc r) := W4_of_ne m ρ c r hr
    _ = m ((c.tc : Thread nD τ).loc r) := W3_of_not_written m ρ c r h0 h1 h2

/-! ## The aggregation's parts as functions of the edge list -/

/-- The words of the edge list's row 0 (the sources). -/
private def srcW (ei : IVec S2x1000000 32) : IVec S1000000 32 :=
  shapeCast S1000000 (extractStridedSlice S1x1000000 ![0, 0] ei slices_S2x1000000_S1x1000000_0_0) shapeCasts_S1x1000000_S1000000

/-- The words of the edge list's row 1 (the destinations). -/
private def dstW (ei : IVec S2x1000000 32) : IVec S1000000 32 :=
  shapeCast S1000000 (extractStridedSlice S1x1000000 ![1, 0] ei slices_S2x1000000_S1x1000000_1_0) shapeCasts_S1x1000000_S1000000

/-- For each node the number of edges that end at it. -/
private def cntOf (ei : IVec S2x1000000 32) : FVec F S100000 .f32 :=
  Host.scatterAdd scatter_S100000_S1000000x1_S1000000_n_0_0_1 (broadcastInDim S100000 ![] bcast_S_S100000 (constant (F := F) S_ .f32 0x00000000#32)) (broadcastInDim S1000000x1 ![0] bcast_S1000000_S1000000x1_0 (dstW ei)) (broadcastInDim S1000000 ![] bcast_S_S1000000 (constant (F := F) S_ .f32 0x3F800000#32))

/-- The scale: one over the larger of the count and one where the count is positive, else zero. -/
private def scaleOf (ei : IVec S2x1000000 32) : FVec F S100000 .f32 :=
  select (cmpf (F := F) .ogt (cntOf (F := F) ei) (broadcastInDim S100000 ![] bcast_S_S100000 (constant (F := F) S_ .f32 0x00000000#32))) (Host.divf (broadcastInDim S100000 ![] bcast_S_S100000 (constant (F := F) S_ .f32 0x3F800000#32)) (maximumf (cntOf (F := F) ei) (broadcastInDim S100000 ![] bcast_S_S100000 (constant (F := F) S_ .f32 0x3F800000#32)))) (broadcastInDim S100000 ![] bcast_S_S100000 (id (constant (F := F) S_ .f32 0x00000000#32)))

/-- The aggregation is: gather the rows of `f` at the (wrapped) sources, add them up at the destinations, scale each row. -/
private theorem agg_eq (ei : IVec S2x1000000 32) (f : FVec F S100000x256 .f32) :
    Cert.Hand.agg (F := F) ei f
      = mulf (Host.scatterAdd scatter_S100000x256_S1000000x1_S1000000x256_1_0_0_1 (broadcastInDim S100000x256 ![] bcast_S_S100000x256 (constant (F := F) S_ .f32 0x00000000#32)) (broadcastInDim S1000000x1 ![0] bcast_S1000000_S1000000x1_0 (dstW ei)) (Host.gather gather_S100000x256_S1000000x1_S1000000x256_1_0_n_n_0_1_1256 f (broadcastInDim S1000000x1 ![0] bcast_S1000000_S1000000x1_0 (select (cmpi .slt (srcW ei) (broadcastInDim S1000000 ![] bcast_S_S1000000 (constantI S_ 32 0#32))) (addi (srcW ei) (broadcastInDim S1000000 ![] bcast_S_S1000000 (constantI S_ 32 100000#32))) (srcW ei))))) (broadcastInDim S100000x256 ![0, 1] bcast_S100000x1_S100000x256_0_1 (broadcastInDim S100000x1 ![0] bcast_S100000_S100000x1_0 (scaleOf (F := F) ei))) := rfl

/-! ## Each stretch of host operations read at one buffer, from ANY contents `X` before it -/

section Stretch
variable (X : Valuation τ sig (Elt F))

/-- The words of the edge list's row 0 (the sources). -/
private theorem s0_v1 : StableHlo.after hostOps0 X (Proc.devRef .tc main_v1)
    = shapeCast S1000000 (extractStridedSlice S1x1000000 ![0, 0] (X (Proc.devRef .tc main_arg1)) slices_S2x1000000_S1x1000000_0_0) shapeCasts_S1x1000000_S1000000 := by
  after_results
  rfl

/-- The words of the edge list's row 1 (the destinations). -/
private theorem s0_v3 : StableHlo.after hostOps0 X (Proc.devRef .tc main_v3)
    = shapeCast S1000000 (extractStridedSlice S1x1000000 ![1, 0] (X (Proc.devRef .tc main_arg1)) slices_S2x1000000_S1x1000000_1_0) shapeCasts_S1x1000000_S1000000 := by
  after_results
  rfl

/-- Where a node has at least one incoming edge: its count of incoming edges compared with zero. -/
private theorem s0_v9 : StableHlo.after hostOps0 X (Proc.devRef .tc main_v9)
    = cmpf (F := F) .ogt (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (shapeCast S1000000 (extractStridedSlice S1x1000000 ![1, 0] (X (Proc.devRef .tc main_arg1)) slices_S2x1000000_S1x1000000_1_0) shapeCasts_S1x1000000_S1000000)) (broadcastInDim S1000000 ![] bcast_S_S1000000 (constant (F := F) S_ .f32 0x3F800000#32))) (broadcastInDim S100000 ![] bcast_S_S100000 (constant (F := F) S_ .f32 0x00000000#32)) := by
  after_results
  rfl

/-- One over the larger of the count and one. -/
private theorem s0_v13 : StableHlo.after hostOps0 X (Proc.devRef .tc main_v13)
    = Host.divf (broadcastInDim S100000 ![] bcast_S_S100000 (constant (F := F) S_ .f32 0x3F800000#32)) (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (shapeCast S1000000 (extractStridedSlice S1x1000000 ![1, 0] (X (Proc.devRef .tc main_arg1)) slices_S2x1000000_S1x1000000_1_0) shapeCasts_S1x1000000_S1000000)) (broadcastInDim S1000000 ![] bcast_S_S1000000 (constant (F := F) S_ .f32 0x3F800000#32))) (broadcastInDim S100000 ![] bcast_S_S100000 (constant (F := F) S_ .f32 0x3F800000#32))) := by
  after_results
  rfl

/-- The zero the scale falls back to. -/
private theorem s0_cst4 : StableHlo.after hostOps0 X (Proc.devRef .tc main_cst_4) = constant (F := F) S_ .f32 0x00000000#32 := by
  after_results

/-- The scale: the reciprocal where the count is positive, else zero. -/
private theorem s1_v14 : StableHlo.after hostOps0_1 X (Proc.devRef .tc main_v14)
    = select (X (Proc.devRef .tc main_v9)) (X (Proc.devRef .tc main_v13)) (broadcastInDim S100000 ![] bcast_S_S100000 (id (X (Proc.devRef .tc main_cst_4)))) := by
  after_results
  rfl

/-- The third stretch's aggregation, over the words, the scale and the features it finds. -/
private theorem s2_v27 : StableHlo.after hostOps0_2 X (Proc.devRef .tc main_v27)
    = mulf (Host.scatterAdd scatter_S100000x256_S1000000x1_S1000000x256_1_0_0_1 (broadcastInDim S100000x256 ![] bcast_S_S100000x256 (constant (F := F) S_ .f32 0x00000000#32)) (broadcastInDim S1000000x1 ![0] bcast_S1000000_S1000000x1_0 (X (Proc.devRef .tc main_v3))) (Host.gather gather_S100000x256_S1000000x1_S1000000x256_1_0_n_n_0_1_1256 (X (Proc.devRef .tc main_arg0)) (broadcastInDim S1000000x1 ![0] bcast_S1000000_S1000000x1_0 (select (cmpi .slt (X (Proc.devRef .tc main_v1)) (broadcastInDim S1000000 ![] bcast_S_S1000000 (constantI S_ 32 0#32))) (addi (X (Proc.devRef .tc main_v1)) (broadcastInDim S1000000 ![] bcast_S_S1000000 (constantI S_ 32 100000#32))) (X (Proc.devRef .tc main_v1)))))) (broadcastInDim S100000x256 ![0, 1] bcast_S100000x1_S100000x256_0_1 (broadcastInDim S100000x1 ![0] bcast_S100000_S100000x1_0 (X (Proc.devRef .tc main_v14)))) := by
  after_results_simp

/-- The fourth stretch's aggregation, the same over region 0's output array. -/
private theorem s3_v42 : StableHlo.after hostOps1 X (Proc.devRef .tc main_v42)
    = mulf (Host.scatterAdd scatter_S100000x256_S1000000x1_S1000000x256_1_0_0_1 (broadcastInDim S100000x256 ![] bcast_S_S100000x256 (constant (F := F) S_ .f32 0x00000000#32)) (broadcastInDim S1000000x1 ![0] bcast_S1000000_S1000000x1_0 (X (Proc.devRef .tc main_v3))) (Host.gather gather_S100000x256_S1000000x1_S1000000x256_1_0_n_n_0_1_1256 (X (Proc.devRef .tc main_v29)) (broadcastInDim S1000000x1 ![0] bcast_S1000000_S1000000x1_0 (select (cmpi .slt (X (Proc.devRef .tc main_v1)) (broadcastInDim S1000000 ![] bcast_S_S1000000 (constantI S_ 32 0#32))) (addi (X (Proc.devRef .tc main_v1)) (broadcastInDim S1000000 ![] bcast_S_S1000000 (constantI S_ 32 100000#32))) (X (Proc.devRef .tc main_v1)))))) (broadcastInDim S100000x256 ![0, 1] bcast_S100000x1_S100000x256_0_1 (broadcastInDim S100000x1 ![0] bcast_S100000_S100000x1_0 (X (Proc.devRef .tc main_v14)))) := by
  after_results_simp

end Stretch

/-! ## The words, the scale and the features at the boundaries of the run -/

private theorem W1_v1 (c : Dev nD) : W1 m ρ c (Proc.devRef .tc main_v1) = srcW (m ((c.tc : Thread nD τ).loc main_arg1)) :=
  s0_v1 (W0 m ρ c)
private theorem W1_v3 (c : Dev nD) : W1 m ρ c (Proc.devRef .tc main_v3) = dstW (m ((c.tc : Thread nD τ).loc main_arg1)) :=
  s0_v3 (W0 m ρ c)
private theorem W1_v9 (c : Dev nD) : W1 m ρ c (Proc.devRef .tc main_v9)
    = cmpf (F := F) .ogt (cntOf (F := F) (m ((c.tc : Thread nD τ).loc main_arg1))) (broadcastInDim S100000 ![] bcast_S_S100000 (constant (F := F) S_ .f32 0x00000000#32)) :=
  s0_v9 (W0 m ρ c)
private theorem W1_v13 (c : Dev nD) : W1 m ρ c (Proc.devRef .tc main_v13)
    = Host.divf (broadcastInDim S100000 ![] bcast_S_S100000 (constant (F := F) S_ .f32 0x3F800000#32)) (maximumf (cntOf (F := F) (m ((c.tc : Thread nD τ).loc main_arg1))) (broadcastInDim S100000 ![] bcast_S_S100000 (constant (F := F) S_ .f32 0x3F800000#32))) :=
  s0_v13 (W0 m ρ c)
private theorem W1_cst4 (c : Dev nD) : W1 m ρ c (Proc.devRef .tc main_cst_4) = constant (F := F) S_ .f32 0x00000000#32 :=
  s0_cst4 (W0 m ρ c)

private theorem W2_v1 (c : Dev nD) : W2 m ρ c (Proc.devRef .tc main_v1) = srcW (m ((c.tc : Thread nD τ).loc main_arg1)) :=
  (StableHlo.after_of_forall_not_mem (b := Proc.devRef .tc main_v1) _ _ (by not_written)).trans (W1_v1 m ρ c)
private theorem W2_v3 (c : Dev nD) : W2 m ρ c (Proc.devRef .tc main_v3) = dstW (m ((c.tc : Thread nD τ).loc main_arg1)) :=
  (StableHlo.after_of_forall_not_mem (b := Proc.devRef .tc main_v3) _ _ (by not_written)).trans (W1_v3 m ρ c)
private theorem W2_v14 (c : Dev nD) : W2 m ρ c (Proc.devRef .tc main_v14) = scaleOf (F := F) (m ((c.tc : Thread nD τ).loc main_arg1)) := by
  refine (s1_v14 (W1 m ρ c)).trans ?_
  rw [W1_v9, W1_v13, W1_cst4]
  rfl
private theorem W2_arg0 (c : Dev nD) : W2 m ρ c (Proc.devRef .tc main_arg0) = m ((c.tc : Thread nD τ).loc main_arg0) :=
  (StableHlo.after_of_forall_not_mem (b := Proc.devRef .tc main_arg0) _ _ (by not_written)).trans
    (StableHlo.after_of_forall_not_mem (b := Proc.devRef .tc main_arg0) _ _ (by not_written))

private theorem W3_v1 (c : Dev nD) : W3 m ρ c (Proc.devRef .tc main_v1) = srcW (m ((c.tc : Thread nD τ).loc main_arg1)) :=
  (StableHlo.after_of_forall_not_mem (b := Proc.devRef .tc main_v1) _ _ (by not_written)).trans (W2_v1 m ρ c)
private theorem W3_v3 (c : Dev nD) : W3 m ρ c (Proc.devRef .tc main_v3) = dstW (m ((c.tc : Thread nD τ).loc main_arg1)) :=
  (StableHlo.after_of_forall_not_mem (b := Proc.devRef .tc main_v3) _ _ (by not_written)).trans (W2_v3 m ρ c)
private theorem W3_v14 (c : Dev nD) : W3 m ρ c (Proc.devRef .tc main_v14) = scaleOf (F := F) (m ((c.tc : Thread nD τ).loc main_arg1)) :=
  (StableHlo.after_of_forall_not_mem (b := Proc.devRef .tc main_v14) _ _ (by not_written)).trans (W2_v14 m ρ c)

/-! ## Region 0's entry contents -/

theorem V3_v27 (c : Dev nD) :
    V3 m ρ c main_v27 = Cert.Hand.agg (F := F) (m ((c.tc : Thread nD τ).loc main_arg1)) (m ((c.tc : Thread nD τ).loc main_arg0)) := by
  refine (s2_v27 (W2 m ρ c)).trans ?_
  rw [W2_v1, W2_v3, W2_v14, W2_arg0]
  exact (agg_eq _ _).symm

theorem V3_arg0 (c : Dev nD) : V3 m ρ c main_arg0 = m ((c.tc : Thread nD τ).loc main_arg0) := by
  exact W3_of_not_written m ρ c main_arg0 (by not_written) (by not_written) (by not_written)

theorem V3_arg2 (c : Dev nD) : V3 m ρ c main_arg2 = m ((c.tc : Thread nD τ).loc main_arg2) := by
  exact W3_of_not_written m ρ c main_arg2 (by not_written) (by not_written) (by not_written)

theorem V3_arg3 (c : Dev nD) : V3 m ρ c main_arg3 = m ((c.tc : Thread nD τ).loc main_arg3) := by
  exact W3_of_not_written m ρ c main_arg3 (by not_written) (by not_written) (by not_written)

theorem V3_v28 (c : Dev nD) :
    V3 m ρ c main_v28 = shapeCast S1x256 (m ((c.tc : Thread nD τ).loc main_arg4)) shapeCasts_S256_S1x256 := by
  show StableHlo.after hostOps0_2 (StableHlo.after hostOps0_1 (StableHlo.after hostOps0 (W0 m ρ c))) (Proc.devRef .tc main_v28) = _
  after_results
  rfl

/-! ## Region 1's entry contents, over region 0's output array -/

/-- Region 0's output array at the region's exit is what its write-backs leave. -/
theorem W4_v29 (c : Dev nD) : W4 m ρ c (Proc.devRef .tc main_v29) = (dat0 (V3 m ρ) c).arrAt 5 cfg0.N :=
  W4_arr m ρ c 5

theorem V5_v29 (c : Dev nD) : V5 m ρ c main_v29 = W4 m ρ c (Proc.devRef .tc main_v29) := by
  exact StableHlo.after_of_forall_not_mem (b := Proc.devRef .tc main_v29) _ _ (by not_written)

theorem V5_v42 (c : Dev nD) :
    V5 m ρ c main_v42 = Cert.Hand.agg (F := F) (m ((c.tc : Thread nD τ).loc main_arg1)) (W4 m ρ c (Proc.devRef .tc main_v29)) := by
  refine (s3_v42 (W4 m ρ c)).trans ?_
  rw [W4_of_ne m ρ c main_v1 (by decide), W4_of_ne m ρ c main_v3 (by decide), W4_of_ne m ρ c main_v14 (by decide),
    W3_v1, W3_v3, W3_v14]
  exact (agg_eq _ _).symm

theorem V5_arg5 (c : Dev nD) : V5 m ρ c main_arg5 = m ((c.tc : Thread nD τ).loc main_arg5) := by
  exact W5_of_not_written m ρ c main_arg5 (by decide) (by not_written) (by not_written) (by not_written) (by not_written)

theorem V5_arg6 (c : Dev nD) : V5 m ρ c main_arg6 = m ((c.tc : Thread nD τ).loc main_arg6) := by
  exact W5_of_not_written m ρ c main_arg6 (by decide) (by not_written) (by not_written) (by not_written) (by not_written)

theorem V5_arg8 (c : Dev nD) : V5 m ρ c main_arg8 = m ((c.tc : Thread nD τ).loc main_arg8) := by
  exact W5_of_not_written m ρ c main_arg8 (by decide) (by not_written) (by not_written) (by not_written) (by not_written)

theorem V5_v43 (c : Dev nD) :
    V5 m ρ c main_v43 = shapeCast S1x128 (m ((c.tc : Thread nD τ).loc main_arg7)) shapeCasts_S128_S1x128 := by
  show StableHlo.after hostOps1 (W4 m ρ c) (Proc.devRef .tc main_v43) = _
  after_results
  rw [W4_of_ne m ρ c main_arg7 (by decide),
    W3_of_not_written m ρ c main_arg7 (by not_written) (by not_written) (by not_written)]
  rfl

theorem V5_v44 (c : Dev nD) :
    V5 m ρ c main_v44 = shapeCast S1x2 (m ((c.tc : Thread nD τ).loc main_arg9)) shapeCasts_S2_S1x2 := by
  show StableHlo.after hostOps1 (W4 m ρ c) (Proc.devRef .tc main_v44) = _
  after_results
  rw [W4_of_ne m ρ c main_arg9 (by decide),
    W3_of_not_written m ρ c main_arg9 (by not_written) (by not_written) (by not_written)]
  rfl

end Cert.KernelIdeal.Hand

end
-- ==== Proof.KValue.lean ====
/-
  THE KERNEL PROGRAM'S RESULT as the network of Spec.lean. The result buffer ends at region 1's output array, which is
  the joined log-softmax of the classifier of the second layer of the arrays region 1 was entered with: the aggregation of
  region 0's output array, that array, the second-layer weights and the biases as rows. Region 0's output array is the
  first layer of the arrays region 0 was entered with: the aggregation of the node features, the features, the
  first-layer weights and the bias as a row. A bias vector reshaped to one row and read at (0, j) is the vector at j.
-/
import proofs.«166485_j36979668418994_1_alg».proof.Proof.Gen.KernelIdeal.Frame
import proofs.«166485_j36979668418994_1_alg».proof.Proof.KRegion0
import proofs.«166485_j36979668418994_1_alg».proof.Proof.KRegion1
import proofs.«166485_j36979668418994_1_alg».proof.Proof.KHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- A vector of n entries reshaped to one row [1, n] and read at (0, j) is the vector at j. -/
theorem bias_row {n : Nat} (v : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ v h (ix2 (0 : Fin 1) (j 0))) = v := by
  funext j
  refine (shapeCast_addUnit_apply ![n] v h (ix2 (0 : Fin 1) (j 0))).trans ?_
  refine congrArg v ?_
  funext a
  match a with
  | ⟨0, _⟩ => rfl

variable (m : (ℓ : Loc nD τ sig) → Buf (Elt Ideal) ℓ) (ρ : Dev nD → PrngReg)

/-- Region 0's output array at its exit: the first layer over the aggregation of the node features. -/
theorem first_layer (c : Dev nD) :
    W4 m ρ c (Proc.devRef .tc main_v29)
      = Cert.Spec.layer (K := 256) (H := 256)
          (Cert.Hand.agg (F := Ideal) (m ((c.tc : Thread nD τ).loc main_arg1)) (m ((c.tc : Thread nD τ).loc main_arg0)))
          (m ((c.tc : Thread nD τ).loc main_arg0)) (m ((c.tc : Thread nD τ).loc main_arg2))
          (m ((c.tc : Thread nD τ).loc main_arg3)) (m ((c.tc : Thread nD τ).loc main_arg4)) := by
  rw [W4_v29, region0_array (V3 m ρ) c, V3_v27, V3_arg0, V3_arg2, V3_arg3, V3_v28]
  exact congrArg _ (bias_row (n := 256) _ _)

/-- The result buffer at the end of the run: the joined log-softmax of the network's logits. -/
theorem kernel_value (c : Dev nD) :
    W6 m ρ c (Proc.devRef .tc main_v45)
      = Cert.Spec.lsmJoined (Cert.Spec.logits (Cert.Hand.agg (F := Ideal) (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))) := by
  refine (W6_arr m ρ c 7).trans ?_
  rw [region1_array (V5 m ρ) c, V5_v42, V5_v29, V5_arg5, V5_arg6, V5_arg8, V5_v43, V5_v44, first_layer m ρ c,
    bias_row (n := 128), bias_row (n := 2)]
  rfl

end Cert.KernelIdeal.Hand

end
-- ==== Proof.RefValue.lean ====
/-
  THE REFERENCE'S RESULT as the network of Spec.lean. The reference applies, in order: the aggregation to the node
  features; the first layer as two whole matrix products, the bias spread over the rows, and the rectifier; the same
  aggregation to that layer's output; the second layer likewise; the classifier; and the log-softmax subtracted as
  (logit − M) − S, with M the maximum along the two classes (a fold of max from −∞, then once more max with −∞) and S the
  logarithm of the sum along the classes of exp (logit − M). Read index by index, each matrix product is the sum over
  the contracted axis, and the result is `lsmSplit` of `logits` of the argument arrays.
-/
import proofs.«166485_j36979668418994_1_alg».proof.Proof.RefReadPatched
import proofs.«166485_j36979668418994_1_alg».proof.Proof.Agg
import proofs.«166485_j36979668418994_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.Finset.Fold

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.ShloMosaic.ValueIdx Idealize.SL.Sem

/-! ## The aggregation is the shared one

Both applications of the aggregation in the reference are, operation for operation, the shared host term: the same
slices of the edge list, the same count, the same reciprocal, the same gather and scatter-add. Nothing is opened. -/

section Aggregation
variable {F : FTy → Type} [FloatOps F]

/-- The first aggregation (of the node features) is the shared aggregation. -/
theorem agg_features (x0 : (⟨S100000x256, .f32⟩ : BufTy).Contents (Elt F)) (x1 : (⟨S2x1000000, .i32⟩ : BufTy).Contents (Elt F)) :
    val_main_v27 (F := F) x0 x1 = Cert.Hand.agg (F := F) x1 x0 := rfl

/-- The second aggregation (of the first layer's output) is the shared aggregation of that output. -/
theorem agg_hidden (x0 : (⟨S100000x256, .f32⟩ : BufTy).Contents (Elt F)) (x1 : (⟨S2x1000000, .i32⟩ : BufTy).Contents (Elt F))
    (x2 x3 : (⟨S256x256, .f32⟩ : BufTy).Contents (Elt F)) (x4 : (⟨S256, .f32⟩ : BufTy).Contents (Elt F)) :
    val_main_v47 (F := F) x0 x1 x2 x3 x4 = Cert.Hand.agg (F := F) x1 (val_main_v34 (F := F) x0 x1 x2 x3 x4) := rfl

end Aggregation

/-! ## Index equations

Read at (r, j), a matrix product's left index at k is (r, k) and its right index (k, j); a bias spread over the rows is
read at j; a per-row quantity spread over the classes is read at r. -/

private theorem ofBits_zero : FloatOps.ofBits (F := Ideal) .f32 0x00000000#32 = (0 : EReal) := Ideal.ofBits_zero_f32

private theorem ofBits_neg_inf : FloatOps.ofBits (F := Ideal) .f32 0xFF800000#32 = (⊥ : EReal) := by
  show Ideal.ofBits .f32 0xFF800000#32 = ⊥
  simp [Ideal.ofBits, Ideal.ieee]

/-! ## The first layer -/

/-- The first layer's output is `layer` of the aggregated features, the features, and the first layer's weights. -/
theorem layer1_eq (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal)) :
    val_main_v34 (F := Ideal) x0 x1 x2 x3 x4 = Cert.Spec.layer (Cert.Hand.agg (F := Ideal) x1 x0) x0 x2 x3 x4 := by
  funext i
  obtain ⟨r, j, rfl⟩ : ∃ (r : Fin 100000) (j : Fin 256), i = ix2 r j := ⟨i 0, i 1, eq_ix2 i⟩
  have el1 : ∀ k : Fin 256, lidx_main_v28 (ix2 r j) k = ix2 r k := fun k =>
    funext fun a => Fin.ext (by match a with | ⟨0, _⟩ => rfl | ⟨1, _⟩ => rfl)
  have er1 : ∀ k : Fin 256, ridx_main_v28 (ix2 r j) k = ix2 k j := fun k =>
    funext fun a => Fin.ext (by match a with | ⟨0, _⟩ => rfl | ⟨1, _⟩ => rfl)
  have el2 : ∀ k : Fin 256, lidx_main_v32 (ix2 r j) k = ix2 r k := fun k =>
    funext fun a => Fin.ext (by match a with | ⟨0, _⟩ => rfl | ⟨1, _⟩ => rfl)
  have er2 : ∀ k : Fin 256, ridx_main_v32 (ix2 r j) k = ix2 k j := fun k =>
    funext fun a => Fin.ext (by match a with | ⟨0, _⟩ => rfl | ⟨1, _⟩ => rfl)
  have eb : idx_main_v29 (idx_main_v30 (ix2 r j)) = ix1 j :=
    funext fun a => Fin.ext (by match a with | ⟨0, _⟩ => rfl)
  rw [Cert.Spec.layer_ix2, val_main_v34_apply, val_main_v33_apply, val_main_v31_apply, val_main_v28_apply, val_main_v30_apply,
    val_main_v29_apply, val_main_v32_apply, val_main_call1_v0_apply, val_main_call1_cst_apply, agg_features, ofBits_zero, eb]
  simp only [el1, er1, el2, er2, Ideal.maximumf_def, Ideal.addf_def]
  rfl

/-! ## The second layer -/

/-- The second layer's output is `layer` of the aggregated first layer, the first layer, and the second layer's weights. -/
theorem layer2_eq (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) :
    val_main_v54 (F := Ideal) x0 x1 x2 x3 x4 x5 x6 x7
      = Cert.Spec.layer (Cert.Hand.agg (F := Ideal) x1 (val_main_v34 (F := Ideal) x0 x1 x2 x3 x4))
          (val_main_v34 (F := Ideal) x0 x1 x2 x3 x4) x5 x6 x7 := by
  funext i
  obtain ⟨r, j, rfl⟩ : ∃ (r : Fin 100000) (j : Fin 128), i = ix2 r j := ⟨i 0, i 1, eq_ix2 i⟩
  have el1 : ∀ k : Fin 256, lidx_main_v48 (ix2 r j) k = ix2 r k := fun k =>
    funext fun a => Fin.ext (by match a with | ⟨0, _⟩ => rfl | ⟨1, _⟩ => rfl)
  have er1 : ∀ k : Fin 256, ridx_main_v48 (ix2 r j) k = ix2 k j := fun k =>
    funext fun a => Fin.ext (by match a with | ⟨0, _⟩ => rfl | ⟨1, _⟩ => rfl)
  have el2 : ∀ k : Fin 256, lidx_main_v52 (ix2 r j) k = ix2 r k := fun k =>
    funext fun a => Fin.ext (by match a with | ⟨0, _⟩ => rfl | ⟨1, _⟩ => rfl)
  have er2 : ∀ k : Fin 256, ridx_main_v52 (ix2 r j) k = ix2 k j := fun k =>
    funext fun a => Fin.ext (by match a with | ⟨0, _⟩ => rfl | ⟨1, _⟩ => rfl)
  have eb : idx_main_v49 (idx_main_v50 (ix2 r j)) = ix1 j :=
    funext fun a => Fin.ext (by match a with | ⟨0, _⟩ => rfl)
  rw [Cert.Spec.layer_ix2, val_main_v54_apply, val_main_v53_apply, val_main_v51_apply, val_main_v48_apply, val_main_v50_apply,
    val_main_v49_apply, val_main_v52_apply, val_main_call2_v0_apply, val_main_call2_cst_apply, agg_hidden, ofBits_zero, eb]
  generalize val_main_v34 (F := Ideal) x0 x1 x2 x3 x4 = h
  simp only [el1, er1, el2, er2, Ideal.maximumf_def, Ideal.addf_def]
  rfl

/-! ## The classifier -/

/-- The classifier's output is `logit` of the second layer and the classifier's weights. -/
theorem logit_eq (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (x8 : (⟨S128x2, .f32⟩ : BufTy).Contents (Elt Ideal)) (x9 : (⟨S2, .f32⟩ : BufTy).Contents (Elt Ideal)) :
    val_main_v58 (F := Ideal) x0 x1 x2 x3 x4 x5 x6 x7 x8 x9
      = Cert.Spec.logit (val_main_v54 (F := Ideal) x0 x1 x2 x3 x4 x5 x6 x7) x8 x9 := by
  funext i
  obtain ⟨r, j, rfl⟩ : ∃ (r : Fin 100000) (j : Fin 2), i = ix2 r j := ⟨i 0, i 1, eq_ix2 i⟩
  have el : ∀ k : Fin 128, lidx_main_v55 (ix2 r j) k = ix2 r k := fun k =>
    funext fun a => Fin.ext (by match a with | ⟨0, _⟩ => rfl | ⟨1, _⟩ => rfl)
  have er : ∀ k : Fin 128, ridx_main_v55 (ix2 r j) k = ix2 k j := fun k =>
    funext fun a => Fin.ext (by match a with | ⟨0, _⟩ => rfl | ⟨1, _⟩ => rfl)
  have eb : idx_main_v56 (idx_main_v57 (ix2 r j)) = ix1 j :=
    funext fun a => Fin.ext (by match a with | ⟨0, _⟩ => rfl)
  rw [Cert.Spec.logit_ix2, val_main_v58_apply, val_main_v55_apply, val_main_v57_apply, val_main_v56_apply, eb]
  generalize val_main_v54 (F := Ideal) x0 x1 x2 x3 x4 x5 x6 x7 = h
  simp only [el, er, Ideal.addf_def]

/-! ## The log-softmax

The maximum along the classes is a fold of max from −∞ over the two classes, then once more a max with −∞: the larger of
the row's two logits. The sum along the classes starts from zero and adds the two exponentials. -/

/-- A fold of a commutative associative operation over the two classes. -/
private theorem fold_two_classes {α : Type} (op : α → α → α) [Std.Commutative op] [Std.Associative op] (b : α) (f : Fin 2 → α) :
    (Finset.univ : Finset (Fin 2)).fold op b f = op (f 0) (op (f 1) b) := by
  have hu : (Finset.univ : Finset (Fin 2)) = insert 0 {1} := by decide
  rw [hu, Finset.fold_insert (by decide), Finset.fold_singleton]

/-- The same fold, over the class axis of the logits' shape. -/
private theorem fold_class_axis {α : Type} (op : α → α → α) [Std.Commutative op] [Std.Associative op] (b : α)
    (f : Fin (S100000x2.size 1) → α) :
    (Finset.univ : Finset (Fin (S100000x2.size 1))).fold op b f = op (f (0 : Fin 2)) (op (f (1 : Fin 2)) b) :=
  fold_two_classes op b f

/-- The reduced index r with the class k put back is (r, k). -/
private theorem lift_row (h : S100000x2.Reduces [1] S100000) (r : Fin 100000) (k : Fin 2) :
    h.lift (ix1 r) k = ix2 r k := by
  funext c
  apply Fin.ext
  match c with
  | ⟨0, _⟩ => rfl
  | ⟨1, _⟩ => rfl

/-- A fold of max from −∞ over the class axis, at row r, is the larger of the row's two entries. -/
private theorem reduce_max_row (L : S100000x2.Idx → EReal) (init : S_.Idx → EReal)
    (hinit : init (Shape.Idx.first h_S_) = ⊥) (r : Fin 100000) :
    Host.reduce (FloatOps.maximumf (F := Ideal) (φ := .f32)) L init reducesTo_S100000x2_S100000_d1 h_S_ (ix1 r)
      = max (L (ix2 r 0)) (L (ix2 r 1)) := by
  have hR : S100000x2.Reduces [1] S100000 := by decide
  rw [Host.reduce_eq_fold_single (α := Ideal .f32) (s := S100000x2) (t := S100000) (a := 1) (u := S_)
      (FloatOps.maximumf (F := Ideal) (φ := .f32)) L init reducesTo_S100000x2_S100000_d1 hR h_S_ (ix1 r),
    fold_class_axis, hinit]
  show max (L (hR.lift (ix1 r) (0 : Fin 2))) (max (L (hR.lift (ix1 r) (1 : Fin 2))) ⊥) = _
  rw [lift_row, lift_row, max_bot_right]

/-- The reference's maximum along the classes, at row r, is the larger of the row's two logits. -/
theorem rowMax_eq (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (x8 : (⟨S128x2, .f32⟩ : BufTy).Contents (Elt Ideal)) (x9 : (⟨S2, .f32⟩ : BufTy).Contents (Elt Ideal)) (r : Fin 100000) :
    val_main_call3_v2 (F := Ideal) x0 x1 x2 x3 x4 x5 x6 x7 x8 x9 (ix1 r)
      = Cert.Spec.rowMax (val_main_v58 (F := Ideal) x0 x1 x2 x3 x4 x5 x6 x7 x8 x9) r := by
  rw [val_main_call3_v2_apply, val_main_call3_v1_apply, val_main_call3_cst_0_apply, ofBits_neg_inf]
  unfold val_main_call3_v0
  rw [reduce_max_row (val_main_v58 (F := Ideal) x0 x1 x2 x3 x4 x5 x6 x7 x8 x9) (val_main_call3_cst (F := Ideal)) ofBits_neg_inf r,
    Ideal.maximumf_def, max_bot_left]
  rfl

/-- The reference's log-softmax is `lsmSplit` of the classifier's output. -/
theorem lsm_eq (x0 : (⟨S100000x256, .f32⟩ : BufTy).Contents (Elt Ideal)) (x1 : (⟨S2x1000000, .i32⟩ : BufTy).Contents (Elt Ideal))
    (x2 x3 : (⟨S256x256, .f32⟩ : BufTy).Contents (Elt Ideal)) (x4 : (⟨S256, .f32⟩ : BufTy).Contents (Elt Ideal))
    (x5 x6 : (⟨S256x128, .f32⟩ : BufTy).Contents (Elt Ideal)) (x7 : (⟨S128, .f32⟩ : BufTy).Contents (Elt Ideal)) (x8 : (⟨S128x2, .f32⟩ : BufTy).Contents (Elt Ideal)) (x9 : (⟨S2, .f32⟩ : BufTy).Contents (Elt Ideal)) :
    val_main_v59 (F := Ideal) x0 x1 x2 x3 x4 x5 x6 x7 x8 x9
      = Cert.Spec.lsmSplit (val_main_v58 (F := Ideal) x0 x1 x2 x3 x4 x5 x6 x7 x8 x9) := by
  funext i
  obtain ⟨r, j, rfl⟩ : ∃ (r : Fin 100000) (j : Fin 2), i = ix2 r j := ⟨i 0, i 1, eq_ix2 i⟩
  -- the row maximum spread over the classes, read at (r, j'), is the row's maximum
  have hM : ∀ j' : Fin 2, val_main_call3_v4 (F := Ideal) x0 x1 x2 x3 x4 x5 x6 x7 x8 x9 (ix2 r j')
      = Cert.Spec.rowMax (val_main_v58 (F := Ideal) x0 x1 x2 x3 x4 x5 x6 x7 x8 x9) r := by
    intro j'
    have e : idx_main_call3_v3 (idx_main_call3_v4 (ix2 r j')) = ix1 r :=
      funext fun a => Fin.ext (by match a with | ⟨0, _⟩ => rfl)
    rw [val_main_call3_v4_apply, val_main_call3_v3_apply, e, rowMax_eq]
  -- the summed index at class k is (r, k)
  have es : ∀ k : Fin 2, idx_main_call3_v7 (idx_main_call3_v8 (idx_main_call3_v10 (ix2 r j))) k = ix2 r k := fun k =>
    funext fun a => Fin.ext (by match a with | ⟨0, _⟩ => rfl | ⟨1, _⟩ => rfl)
  rw [val_main_v59_apply, val_main_call3_v10_apply, val_main_call3_v9_apply, val_main_call3_v8_apply,
    val_main_call3_v7_apply, val_main_call3_cst_1_apply, ofBits_zero, Fin.sum_univ_two, es, es]
  rw [val_main_call3_v6_apply, val_main_call3_v6_apply, val_main_call3_v5_apply, val_main_call3_v5_apply, val_main_call3_v5_apply,
    hM, hM, hM]
  generalize val_main_v58 (F := Ideal) x0 x1 x2 x3 x4 x5 x6 x7 x8 x9 = L
  simp only [Ideal.subf_def, Ideal.hostUnary_log_def, Ideal.hostUnary_exp_def, zero_add]
  rfl

/-! ## The whole reference -/

/-- The reference run's result term, at the extended reals, is the split log-softmax of the network's logits over the
    shared aggregation of the edge list. -/
theorem ref_value (m : (ℓ : Loc nD τ sig) → Buf (Elt Ideal) ℓ) (c : Dev nD) :
    Cert.ReferenceIdeal.ValueP.res_main_v59 (F := Ideal) m c
      = Cert.Spec.lsmSplit (Cert.Spec.logits (Cert.Hand.agg (F := Ideal) (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))) := by
  rw [val_main_v59_eq, lsm_eq, logit_eq, layer2_eq, layer1_eq]
  rfl

end Cert.ReferenceIdeal.Hand

end
-- ==== Proof.lean ====
/-
  A two-layer GraphSAGE with a linear classifier and a log-softmax, as two Pallas kernels among host operations (the
  kernel program) against the same network in plain array operations (the reference). Both programs aggregate
  neighbour means with the SAME host operations (a gather at the source nodes, a scatter-add at the destination nodes,
  a division by the in-degree); the kernels compute, block of 2000 nodes by block, what the reference computes with
  whole matrix products; on the extended reals the casts to bf16 are the identity and a sum does not depend on its
  order or tiling. The one algebraic difference is in the log-softmax: the kernel subtracts logit − (M + S), the reference
  (logit − M) − S, which agree exactly when the logits are real numbers: that is what the precondition (every float
  input finite) gives, real numbers staying real through sums, products, maxima and the aggregation (Spec.lean).

  The three frames: the two kernel programs' are the generated frame certificates; the reference's is its run with the
  result dropped. The idealization rewrote nothing, so `preserves` is trivial. `algebraic`: the kernel program's run
  ends with the result at the joined log-softmax of the network's logits (KRun, KValue), the reference's at the split
  one (RefRunPatched, RefValue), of argument arrays that agree; the two are one array (Spec.lsm_eq).
-/
import proofs.«166485_j36979668418994_1_alg».proof.Defs
import proofs.«166485_j36979668418994_1_alg».proof.Proof.Gen.Kernel
import proofs.«166485_j36979668418994_1_alg».proof.Proof.Gen.Kernel.Skeleton
import proofs.«166485_j36979668418994_1_alg».proof.Proof.Gen.Kernel.Launch
import proofs.«166485_j36979668418994_1_alg».proof.Proof.Gen.Kernel.Points
import proofs.«166485_j36979668418994_1_alg».proof.Proof.Gen.Kernel.Frame
import proofs.«166485_j36979668418994_1_alg».proof.Proof.Gen.KernelIdeal
import proofs.«166485_j36979668418994_1_alg».proof.Proof.Gen.KernelIdeal.Skeleton
import proofs.«166485_j36979668418994_1_alg».proof.Proof.Gen.KernelIdeal.Launch
import proofs.«166485_j36979668418994_1_alg».proof.Proof.Gen.KernelIdeal.Points
import proofs.«166485_j36979668418994_1_alg».proof.Proof.Gen.KernelIdeal.Frame
import proofs.«166485_j36979668418994_1_alg».proof.Proof.Gen.ReferenceIdeal
import proofs.«166485_j36979668418994_1_alg».proof.Proof.Gen.Pre_finite_inputs
import proofs.«166485_j36979668418994_1_alg».proof.Proof.Spec
import proofs.«166485_j36979668418994_1_alg».proof.Proof.Agg
import proofs.«166485_j36979668418994_1_alg».proof.Proof.PreReal
import proofs.«166485_j36979668418994_1_alg».proof.Proof.KRun
import proofs.«166485_j36979668418994_1_alg».proof.Proof.KValue
import proofs.«166485_j36979668418994_1_alg».proof.Proof.RefRunPatched
import proofs.«166485_j36979668418994_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the split log-softmax of the network's logits of the kernel program's argument
    arrays: the kernel program's joined form is the split one because the logits are real numbers under the
    precondition; the reference's arguments are the kernel program's. -/
theorem algebraic : Cert.algebraic_KernelIdeal_ReferenceIdeal := by
  intro m ρ m' ρ' hpre hagree
  refine ⟨fun c => Cert.Spec.lsmSplit (Cert.Spec.logits (Cert.Hand.agg (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ⟨(h c).1.trans ?_, (h c).2⟩)
      (Cert.KernelIdeal.GenP.run_named (F := Ideal) m ρ)
    rw [Cert.KernelIdeal.Hand.kernel_value m ρ c]
    obtain ⟨h0, h2, h3, h4, h5, h6, h7, h8, h9⟩ := Cert.Hand.args_real m hpre c
    exact Cert.Spec.lsm_eq _ (Cert.Spec.logits_real _ (fun f hf => Cert.Hand.agg_real _ f hf) _ _ _ _ _ _ _ _ _
      h0 h2 h3 h4 h5 h6 h7 h8 h9)
  · refine (θ_run Cert.ReferenceIdeal.defs _ _).mono (fun r h c => ⟨(h c).1.trans ?_, (h c).2⟩)
      (Cert.ReferenceIdeal.ValueP.run (F := Ideal) m' ρ')
    rw [Cert.ReferenceIdeal.Hand.ref_value m' c]
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
